-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S32000 : Shape := ⟨1, ![32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S32000 : S_.BroadcastsInDim S32000 (![] : Fin 0 → Fin S32000.rank)
  reducesTo_S32000_S_d0 : S32000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) (main_arg2 : FVec F S32000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S32000 .f32 := Host.absf main_arg2
  let main_cst_0 : FVec F S_ .f32 := constant S_ .f32 0x7F800000#32
  let main_v5 : FVec F S32000 .f32 := broadcastInDim S32000 ![] bcast_S_S32000 main_cst_0
  let main_v6 : IVec S32000 1 := cmpf .olt main_v4 main_v5
  let main_c_1 : IVec S_ 1 := constantI S_ 1 1#1
  let main_v7 : IVec S_ 1 := (fun x v => Host.reduce IntOp.andi x v reducesTo_S32000_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 32000#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x32000 : Shape := ⟨2, ![4096, 32000]⟩
abbrev S4096 : Shape := ⟨1, ![4096]⟩
abbrev S32000 : Shape := ⟨1, ![32000]⟩
abbrev S_ : Shape := ⟨0, ![]⟩
abbrev S4096x1 : Shape := ⟨2, ![4096, 1]⟩
abbrev S1x32000 : Shape := ⟨2, ![1, 32000]⟩
abbrev S512x3200 : Shape := ⟨2, ![512, 3200]⟩
abbrev S1x3200 : Shape := ⟨2, ![1, 3200]⟩
abbrev S512x1 : Shape := ⟨2, ![512, 1]⟩
abbrev S512 : Shape := ⟨1, ![512]⟩

abbrev nBuf : Space → Nat
  | .hbm => 25
  | .vmem => 13
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S32000, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096x1, .i32⟩
  | .hbm, ⟨19, _⟩ => ⟨S4096, .f32⟩
  | .hbm, ⟨20, _⟩ => ⟨S4096x1, .f32⟩
  | .hbm, ⟨21, _⟩ => ⟨S4096x1, .i32⟩
  | .hbm, ⟨22, _⟩ => ⟨S1x32000, .f32⟩
  | .hbm, ⟨23, _⟩ => ⟨S4096x1, .f32⟩
  | .hbm, ⟨24, _⟩ => ⟨S4096, .f32⟩
  | .local _ .vmem, ⟨0, _⟩ => ⟨S512x3200, .f32⟩
  | .local _ .vmem, ⟨1, _⟩ => ⟨S512x3200, .f32⟩
  | .local _ .vmem, ⟨2, _⟩ => ⟨S1x3200, .f32⟩
  | .local _ .vmem, ⟨3, _⟩ => ⟨S1x3200, .f32⟩
  | .local _ .vmem, ⟨4, _⟩ => ⟨S512x1, .f32⟩
  | .local _ .vmem, ⟨5, _⟩ => ⟨S512x1, .f32⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_c_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v45 : BitVec 1 := Scalar.cmpi .eq arg1 c9_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4096_S4096x1 : S4096.ShapeCasts S4096x1
  shapeCasts_S32000_S1x32000 : S32000.ShapeCasts S1x32000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  reduces_S512x3200_S512 : S512x3200.Reduces [1] S512
  shapeCasts_S512_S512x1 : S512.ShapeCasts S512x1
  broadcasts_S512x1_S512x3200 : S512x1.Broadcasts S512x3200
  broadcasts_S1x3200_S512x3200 : S1x3200.Broadcasts S512x3200
  iota_S512x3200_d1_w32 : S512x3200.Iotas .tc 32 [1]
  shapeCasts_S4096x1_S4096 : S4096x1.ShapeCasts S4096
  gather_S32000_S4096x1_S4096_n_0_n_n_0_1_1_wf : GatherDims.WF S32000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S4096x32000.size a
  hwx0_0 : ∀ i : grid0.Coords, EltTy.bits .f32 = 32 ∨ (Rect.block (s := S4096x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x32000.size a
  hwx0_1 : ∀ i : grid0.Coords, EltTy.bits .f32 = 32 ∨ (Rect.block (s := S1x32000) S1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S32000 : Shape := ⟨1, ![32000]⟩
abbrev S_ : Shape := ⟨0, ![]⟩
abbrev S1x32000 : Shape := ⟨2, ![1, 32000]⟩
abbrev S4096x1 : Shape := ⟨2, ![4096, 1]⟩
abbrev S4096x2 : Shape := ⟨2, ![4096, 2]⟩

abbrev nBuf : Space → Nat
  | .hbm => 47
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S32000, .f32⟩
  | .hbm, ⟨3, _⟩ => ⟨S_, .f32⟩
  | .hbm, ⟨4, _⟩ => ⟨S_, .f32⟩
  | .hbm, ⟨5, _⟩ => ⟨S4096x32000, .f32⟩
  | .hbm, ⟨6, _⟩ => ⟨S4096x32000, .f32⟩
  | .hbm, ⟨7, _⟩ => ⟨S1x32000, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x1, .i32⟩
  | .hbm, ⟨31, _⟩ => ⟨S4096x2, .i32⟩
  | .hbm, ⟨32, _⟩ => ⟨S4096, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S4096x32000_S_d0_1 : S4096x32000.ReducesTo [0, 1] S_
  h_S_ : 0 < S_.numel
  bcast_S_S4096x32000 : S_.BroadcastsInDim S4096x32000 (![] : Fin 0 → Fin S4096x32000.rank)
  bcast_S32000_S1x32000_1 : S32000.BroadcastsInDim S1x32000 (![1] : Fin 1 → Fin S1x32000.rank)
  bcast_S1x32000_S4096x32000_0_1 : S1x32000.BroadcastsInDim S4096x32000 (![0, 1] : Fin 2 → Fin S4096x32000.rank)
  reducesTo_S4096x32000_S4096_d1 : S4096x32000.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S4096x32000_S4096x2_S4096_n_01_n_n_01_1_11_wf : GatherDims.WF S4096x32000 S4096x2 S4096 [] [0, 1] [] [0, 1] [] 1 ![1, 1]
  gather_S32000_S4096x1_S4096_n_0_n_n_0_1_1_wf : GatherDims.WF S32000 S4096x1 S4096 [] [0] [] [0] [] 1 ![1]

variable [Facts₀]

def gather_S4096x32000_S4096x2_S4096_n_01_n_n_01_1_11 : GatherDims S4096x32000 S4096x2 S4096 where
  offsetDims := []
  collapsedSliceDims := [0, 1]
  operandBatchingDims := []
  startIndicesBatchingDims := []
  startIndexMap := [0, 1]
  indexVectorDim := 1
  sliceSizes := ![1, 1]
  wf := gather_S4096x32000_S4096x2_S4096_n_01_n_n_01_1_11_wf
def gather_S32000_S4096x1_S4096_n_0_n_n_0_1_1 : GatherDims S32000 S4096x1 S4096 where
  offsetDims := []
  collapsedSliceDims := [0]
  operandBatchingDims := []
  startIndicesBatchingDims := []
  startIndexMap := [0]
  indexVectorDim := 1
  sliceSizes := ![1]
  wf := gather_S32000_S4096x1_S4096_n_0_n_n_0_1_1_wf

class Facts : Prop extends Facts₀ where

variable [Facts]
-- ==== Proof.PreRead.lean ====
/-
  What the printed precondition says of the three arrays. The predicate is the conjunction of three
  "for all" statements, each a reduction by `and` of an array of bits: every logit has absolute value below +∞,
  every weight has absolute value below +∞, and every target word t satisfies 0 ≤ t < 32000 read signed.
  At the extended reals an absolute value max x (-x) below +∞ excludes both infinities, so x is a real;
  a 32-bit word in [0, 32000) signed has its top bit clear and so is below 32000 unsigned.
-/
import proofs.«404558_j17944373362748_2_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace BalancedSoftmax.Pre

open Idealize.ShloMosaic

/-- The rank-0 shape has exactly one index. -/
instance subsingleton_scalar_idx : Subsingleton Cert.Pre_finite_inputs.S_.Idx :=
  ⟨fun a b => funext fun d => d.elim0⟩

/-- An extended real whose absolute value max x (-x) lies strictly below +∞ is a real number:
    at ⊥ the negation is ⊤, at ⊤ the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The bit "|x| < +∞" being set says x is a real. -/
theorem real_of_bit (x : EReal)
    (h : FloatOps.cmpf (F := Ideal) (φ := .f32) .olt (FloatOps.hostAbsf (F := Ideal) (φ := .f32) x)
          (FloatOps.ofBits (F := Ideal) .f32 0x7F800000#32) = 1#1) : ∃ r : ℝ, x = (r : EReal) := by
  apply real_of_abs_lt_top
  have e : Ideal.ofBits .f32 0x7F800000#32 = ⊤ := by simp [Ideal.ofBits, Ideal.ieee]
  change Ideal.cmp .olt (max x (-x)) (Ideal.ofBits .f32 0x7F800000#32) = 1#1 at h
  rw [e] at h
  unfold Ideal.cmp at h
  rw [StableHlo.Predicate.ofBool_eq_one_iff] at h
  exact of_decide_eq_true h

/-- A 32-bit word in [0, 32000) read signed is below 32000 read unsigned. -/
theorem toNat_lt_of_signed_range (w : BitVec 32) (h0 : IntOp.cmpi .sge w 0#32 = 1#1)
    (h1 : IntOp.cmpi .slt w 32000#32 = 1#1) : w.toNat < 32000 := by
  rw [IntOp.cmpi_sge] at h0
  rw [IntOp.cmpi_slt] at h1
  have z : (0#32 : BitVec 32).toInt = 0 := by decide
  have c : (32000#32 : BitVec 32).toInt = 32000 := by decide
  rw [z] at h0
  rw [c] at h1
  have hw := w.isLt
  rw [BitVec.toInt_eq_toNat_cond] at h0 h1
  split at h0 <;> omega

/-- The elementwise `and` of two arrays of words, read at one index. -/
theorem andi_apply {s : Shape} {n : Nat} (a b : IVec s n) (i : s.Idx) : andi a b i = IntOp.andi (a i) (b i) := rfl

theorem finite_and_in_range [Cert.Pre_finite_inputs.Facts]
    (x : FVec Ideal Cert.Pre_finite_inputs.S4096x32000 .f32) (t : IVec Cert.Pre_finite_inputs.S4096 32)
    (w : FVec Ideal Cert.Pre_finite_inputs.S32000 .f32)
    (h : Cert.Pre_finite_inputs.fn (F := Ideal) x t w = fun _ => 1#1) :
    (∀ i, ∃ r : ℝ, x i = (r : EReal)) ∧ (∀ k, ∃ r : ℝ, w k = (r : EReal)) ∧ (∀ i, (t i).toNat < 32000) := by
  have h0 := congrFun h ValueIdx.ix0
  dsimp only [Cert.Pre_finite_inputs.fn] at h0
  rw [andi_apply, andi_apply] at h0
  obtain ⟨h12, h3⟩ := IntOp.andi_eq_one.1 h0
  obtain ⟨h1, h2⟩ := IntOp.andi_eq_one.1 h12
  refine ⟨fun i => ?_, fun k => ?_, fun i => ?_⟩
  · exact real_of_bit (x i) (Host.reduce_andi_all _ _ _ _ _ h1 i)
  · exact real_of_bit (w k) (Host.reduce_andi_all _ _ _ _ _ h2 k)
  · have e := Host.reduce_andi_all _ _ _ _ _ h3 i
    rw [andi_apply] at e
    obtain ⟨ea, eb⟩ := IntOp.andi_eq_one.1 e
    exact toNat_lt_of_signed_range (t i) ea eb

end BalancedSoftmax.Pre

end
-- ==== Proof.Spec.lean ====
/-
  The balanced-softmax loss as one function of the three argument arrays, over the extended reals.

  For a row `i` with label `y = tgt i` (a class in `[0, 32000)`), logits `x i ·` and class weights `w`:

      loss i = -(w y) · ( (log (w y) + x i y) - log (Σ_j w j · exp (x i j)) ).

  This is the UNSHIFTED form. Both programs subtract a shift from the logits before exponentiating (one a
  running per-row maximum, the other the maximum of the whole array); for finite logits and weights the
  shift cancels, whatever real number it is (`Laws.lean`), so both compute this function.
-/
import Idealize.ShloMosaic.PureOps.Ideal
import Idealize.ShloMosaic.Lib.ValueIdx

noncomputable section

namespace BalancedSoftmax

open Idealize.ShloMosaic Idealize.ShloMosaic.ValueIdx

/-- The logits' shape: 4096 rows of 32000 classes. -/
abbrev SLogits : Shape := ⟨2, ![4096, 32000]⟩
/-- One entry per row. -/
abbrev SRows : Shape := ⟨1, ![4096]⟩
/-- One entry per class. -/
abbrev SClasses : Shape := ⟨1, ![32000]⟩

/-- The class a label word names. Labels are in `[0, 32000)` under the precondition, where this is the
    word's value; elsewhere it is only a total function. -/
def classOf (t : BitVec 32) : Fin 32000 := ⟨t.toNat % 32000, Nat.mod_lt _ (by decide)⟩

theorem classOf_val_of_lt {t : BitVec 32} (h : t.toNat < 32000) : (classOf t).val = t.toNat :=
  Nat.mod_eq_of_lt h

/-- Row `r`'s weighted partition sum `Σ_j w j · exp (x r j)`. -/
def partition (x : SLogits.Idx → EReal) (w : SClasses.Idx → EReal) (r : Fin 4096) : EReal :=
  ∑ j : Fin 32000, w (ix1 j) * Ideal.exp (x (ix2 r j))

/-- The loss of every row. -/
def loss (x : SLogits.Idx → EReal) (tgt : SRows.Idx → BitVec 32) (w : SClasses.Idx → EReal) : SRows.Idx → EReal :=
  fun i =>
    -(w (ix1 (classOf (tgt i))))
      * ((Ideal.log (w (ix1 (classOf (tgt i)))) + x (ix2 (i 0) (classOf (tgt i)))) - Ideal.log (partition x w (i 0)))

end BalancedSoftmax

end
-- ==== Proof.Laws.lean ====
/-
  The real-number laws behind the balanced-softmax loss, lifted to the extended reals.

  * a finite sum of real numbers, taken in the extended reals, is the real sum;
  * the shift cancels: for any real `M`, `Σ_j w j · exp (x j - M) = exp (-M) · Σ_j w j · exp (x j)`, the two sums
    have the same sign, so their logarithms (with `log r = ⊥` for `r ≤ 0`) differ by exactly `M` when positive and are
    both `⊥` otherwise; either way `(a + x_y) - (M + log S_M) = (a + x_y) - log S_0`, for every extended real `a`;
  * the online update: rescaling a partial sum taken at shift `M` by `exp (M - M')` gives the partial sum at shift `M'`;
  * a maximum of finitely many reals, started from `⊥` or from a real, is a real.
-/
import proofs.«404558_j17944373362748_2_alg».proof.Proof.Spec
import Mathlib.Analysis.SpecialFunctions.Log.Basic
import Mathlib.Algebra.BigOperators.Intervals

noncomputable section

namespace BalancedSoftmax

open Idealize.ShloMosaic Idealize.ShloMosaic.ValueIdx

/-- A finite sum of reals in the extended reals is the real sum. -/
theorem coe_sum {ι : Type*} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem log_coe (r : ℝ) : Ideal.log (r : EReal) = if r ≤ 0 then ⊥ else ((Real.log r : ℝ) : EReal) := rfl

/-- Shifting every exponent by `M` scales the weighted sum by `exp (-M)`. -/
theorem sum_shift {ι : Type*} (s : Finset ι) (wr xr : ι → ℝ) (M : ℝ) :
    (∑ j ∈ s, wr j * Real.exp (xr j - M)) = Real.exp (-M) * ∑ j ∈ s, wr j * Real.exp (xr j) := by
  rw [Finset.mul_sum]
  refine Finset.sum_congr rfl fun j _ => ?_
  rw [sub_eq_add_neg, Real.exp_add]
  ring

/-- The logarithm of the scaled sum: `⊥` when the sum is not positive, else the real logarithm moved by `-M`. -/
theorem log_scaled (S M : ℝ) :
    Ideal.log ((Real.exp (-M) * S : ℝ) : EReal)
      = if S ≤ 0 then ⊥ else ((-M + Real.log S : ℝ) : EReal) := by
  rw [log_coe]
  by_cases h : S ≤ 0
  · rw [if_pos h, if_pos (mul_nonpos_of_nonneg_of_nonpos (Real.exp_pos _).le h)]
  · have hS : 0 < S := lt_of_not_ge h
    rw [if_neg h, if_neg (not_le.2 (mul_pos (Real.exp_pos _) hS)),
      Real.log_mul (Real.exp_pos _).ne' hS.ne', Real.log_exp]

/-- The shift cancels (the form with the shift added back outside the logarithm). -/
theorem shift_cancel_add {ι : Type*} (s : Finset ι) (wr xr : ι → ℝ) (a : EReal) (xy M : ℝ) :
    (a + (xy : EReal)) - ((M : EReal) + Ideal.log ((∑ j ∈ s, wr j * Real.exp (xr j - M) : ℝ) : EReal))
      = (a + (xy : EReal)) - Ideal.log ((∑ j ∈ s, wr j * Real.exp (xr j) : ℝ) : EReal) := by
  rw [sum_shift s wr xr M, log_scaled, log_coe]
  by_cases h : (∑ j ∈ s, wr j * Real.exp (xr j)) ≤ 0
  · rw [if_pos h, if_pos h, EReal.add_bot]
  · rw [if_neg h, if_neg h, ← EReal.coe_add, add_neg_cancel_left]

/-- The shift cancels (the form with the label's logit shifted too). -/
theorem shift_cancel_sub {ι : Type*} (s : Finset ι) (wr xr : ι → ℝ) (a : EReal) (xy C : ℝ) :
    (a + ((xy : EReal) - (C : EReal))) - Ideal.log ((∑ j ∈ s, wr j * Real.exp (xr j - C) : ℝ) : EReal)
      = (a + (xy : EReal)) - Ideal.log ((∑ j ∈ s, wr j * Real.exp (xr j) : ℝ) : EReal) := by
  rw [sum_shift s wr xr C, log_scaled, log_coe, ← EReal.coe_sub]
  by_cases h : (∑ j ∈ s, wr j * Real.exp (xr j)) ≤ 0
  · rw [if_pos h, if_pos h]
    induction a using EReal.rec with
    | bot => rw [EReal.bot_add, EReal.bot_add]
    | coe a => rw [← EReal.coe_add, ← EReal.coe_add, EReal.coe_sub_bot, EReal.coe_sub_bot]
    | top => rw [EReal.top_add_coe, EReal.top_add_coe]
  · rw [if_neg h, if_neg h]
    induction a using EReal.rec with
    | bot => rw [EReal.bot_add, EReal.bot_add, EReal.bot_sub, EReal.bot_sub]
    | coe a =>
      rw [← EReal.coe_add, ← EReal.coe_add, ← EReal.coe_sub, ← EReal.coe_sub]
      congr 1
      ring
    | top => rw [EReal.top_add_coe, EReal.top_add_coe, EReal.top_sub_coe, EReal.top_sub_coe]

/-- The online update: the partial sum over the first `a` classes at shift `M`, rescaled to shift `M'`, plus the
    next `b` classes at shift `M'`, is the partial sum over the first `a + b` classes at shift `M'`. -/
theorem online_step (wv xs : ℕ → ℝ) (a b : ℕ) (M M' : ℝ) :
    (∑ j ∈ Finset.range a, wv j * Real.exp (xs j - M)) * Real.exp (M - M')
        + ∑ q ∈ Finset.range b, wv (a + q) * Real.exp (xs (a + q) - M')
      = ∑ j ∈ Finset.range (a + b), wv j * Real.exp (xs j - M') := by
  rw [Finset.sum_range_add, Finset.sum_mul]
  congr 1
  refine Finset.sum_congr rfl fun j _ => ?_
  rw [mul_assoc, ← Real.exp_add]
  congr 2
  ring

/-- The larger of two reals, taken in the extended reals, is the real maximum. -/
theorem max_coe (x y : ℝ) : max ((x : ℝ) : EReal) ((y : ℝ) : EReal) = ((max x y : ℝ) : EReal) :=
  (EReal.coe_strictMono.monotone.map_max).symm

/-- A maximum of finitely many reals started from `⊥` is `⊥` or a real. -/
theorem fold_max_bot_cases {ι : Type*} (s : Finset ι) (f : ι → ℝ) :
    s.fold max (⊥ : EReal) (fun k => ((f k : ℝ) : EReal)) = ⊥
      ∨ ∃ M : ℝ, s.fold max (⊥ : EReal) (fun k => ((f k : ℝ) : EReal)) = (M : EReal) := by
  classical
  induction s using Finset.induction_on with
  | empty => exact Or.inl Finset.fold_empty
  | insert a s ha ih =>
    right
    rw [Finset.fold_insert ha]
    rcases ih with h | ⟨M, h⟩
    · exact ⟨f a, by rw [h, max_bot_right]⟩
    · exact ⟨max (f a) M, by rw [h, max_coe]⟩

/-- A maximum of finitely many reals (at least one) started from `⊥` is a real. -/
theorem fold_max_bot_coe {ι : Type*} (s : Finset ι) (f : ι → ℝ) (hs : s.Nonempty) :
    ∃ M : ℝ, s.fold max (⊥ : EReal) (fun k => ((f k : ℝ) : EReal)) = (M : EReal) := by
  classical
  obtain ⟨a, ha⟩ := hs
  rw [← Finset.insert_erase ha, Finset.fold_insert (Finset.notMem_erase a s)]
  rcases fold_max_bot_cases (s.erase a) f with h | ⟨M, h⟩
  · exact ⟨f a, by rw [h, max_bot_right]⟩
  · exact ⟨max (f a) M, by rw [h, max_coe]⟩

/-- A maximum of finitely many reals started from a real is a real. -/
theorem fold_max_coe {ι : Type*} (s : Finset ι) (f : ι → ℝ) (b : ℝ) :
    ∃ M : ℝ, s.fold max (b : EReal) (fun k => ((f k : ℝ) : EReal)) = (M : EReal) := by
  classical
  induction s using Finset.induction_on with
  | empty => exact ⟨b, Finset.fold_empty⟩
  | insert a s ha ih =>
    obtain ⟨M, h⟩ := ih
    exact ⟨max (f a) M, by rw [Finset.fold_insert ha, h, max_coe]⟩

/-- With real logits and weights a row's partition sum is the real sum. -/
theorem partition_coe (x : SLogits.Idx → EReal) (w : SClasses.Idx → EReal) (xr : Fin 4096 → Fin 32000 → ℝ) (wr : Fin 32000 → ℝ)
    (hx : ∀ r j, x (ix2 r j) = ((xr r j : ℝ) : EReal)) (hw : ∀ j, w (ix1 j) = ((wr j : ℝ) : EReal)) (r : Fin 4096) :
    partition x w r = ((∑ j : Fin 32000, wr j * Real.exp (xr r j) : ℝ) : EReal) := by
  rw [← coe_sum Finset.univ (fun j => wr j * Real.exp (xr r j))]
  unfold partition
  refine Finset.sum_congr rfl fun j _ => ?_
  rw [hx, hw, exp_coe, EReal.coe_mul]

end BalancedSoftmax

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.RefValue.lean ====
/-
  The reference program's result is the balanced-softmax loss.

  The program subtracts the maximum C of ALL logits before exponentiating, takes the logarithm of the weighted row sums
  of exp (x - C), reads the label's weight and the label's shifted logit through two gathers, and returns
  -(w y) · ((log (w y) + (x i y - C)) - log Σ_j w j · exp (x i j - C)). For real logits C is a real number, whatever
  its value, and the shift cancels; for labels in [0, 32000) the gathers' start indices are the row and the label
  themselves (no wrap, no clamp).
-/
import proofs.«404558_j17944373362748_2_alg».proof.Proof.Gen.ReferenceIdeal.Read
import proofs.«404558_j17944373362748_2_alg».proof.Proof.Spec
import proofs.«404558_j17944373362748_2_alg».proof.Proof.Laws
import proofs.«404558_j17944373362748_2_alg».proof.Proof.LibRowRead
import Idealize.ShloMosaic.Lib.ValueIdx
import Idealize.ShloMosaic.Lib.StableHlo.Predicate
import Idealize.ShloMosaic.Lib.Pipeline.Value
import Idealize.ShloMosaic.PureOps.Ideal.Laws

noncomputable section

namespace BalancedSoftmax.Ref

open Idealize.ShloMosaic Idealize.ShloMosaic.ValueIdx

/-! ## A gather of single elements of a rank-2 array, read at a row

Start indices `[n, 2]`, row `p` holding (row, column); both operand axes collapsed and start-indexed, no offset or
batching axes, the index vector on axis 1. Result element `p` is the operand at the two start-index components, each
read signed and clamped into its axis. -/

section PairGather
variable {α : Type}

theorem gather_pair {R C n w : Nat} (d : GatherDims ⟨2, ![R, C]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, C]⟩ : Shape).Idx → α) (idx : IVec ⟨2, ![n, 2]⟩ w) (p : Fin n) (hR : 0 < R) (hC : 0 < C) :
    Host.gather d x idx (ix1 p)
      = x (ix2 (⟨min (idx (ix2 p (0 : Fin 2))).toInt.toNat (R - 1), by omega⟩ : Fin R)
              (⟨min (idx (ix2 p (1 : Fin 2))).toInt.toNat (C - 1), by omega⟩ : Fin C)) := by
  unfold Host.gather
  congr 1
  funext a
  have hb : ∀ a : Fin 2, a ∉ d.operandBatchingDims := fun a => by rw [hob]; exact List.not_mem_nil
  have hk : ∀ a : Fin 2, a ∉ d.sKept := fun a => by
    rw [GatherDims.mem_sKept, hcoll]; intro h; apply h.1; fin_cases a <;> simp
  have hm : ∀ a : Fin 2, a ∈ d.startIndexMap := fun a => by rw [hsim]; fin_cases a <;> simp
  have hsl : ∀ a : Fin 2, d.sliceSizes a = 1 := fun a => d.slice_collapsed a (by rw [hcoll]; fin_cases a <;> simp)
  -- the start-indices index of component c at row p is (p, c)
  have hsi : ∀ a : Fin 2, d.siIdx (ix1 p) ⟨List.idxOf a d.startIndexMap, List.idxOf_lt_length_iff.2 (hm a)⟩ = ix2 p a := by
    intro a
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf a d.startIndexMap = a.val
      rw [hsim]; fin_cases a <;> simp
  apply Fin.ext
  simp only [GatherDims.operandIdx, GatherDims.batchCoord_eq_zero _ _ _ (hb a), GatherDims.offCoord_eq_zero _ _ _ (hk a),
    Nat.add_zero, GatherDims.start, dif_pos (hm a)]
  rw [hsi a, hsl a]
  match a with
  | ⟨0, _⟩ => rfl
  | ⟨1, _⟩ => rfl

/-- The same with the two clamped components named by the caller. -/
theorem gather_pair_of {R C n w : Nat} (d : GatherDims ⟨2, ![R, C]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, C]⟩ : Shape).Idx → α) (idx : IVec ⟨2, ![n, 2]⟩ w) (p : Fin n) (r : Fin R) (c : Fin C)
    (hr : min (idx (ix2 p (0 : Fin 2))).toInt.toNat (R - 1) = r.val)
    (hc : min (idx (ix2 p (1 : Fin 2))).toInt.toNat (C - 1) = c.val) :
    Host.gather d x idx (ix1 p) = x (ix2 r c) := by
  rw [gather_pair d hcoll hob hsim hivd x idx p (Nat.pos_of_ne_zero fun h => by subst h; exact r.elim0)
    (Nat.pos_of_ne_zero fun h => by subst h; exact c.elim0)]
  congr 1
  funext a
  match a with
  | ⟨0, _⟩ => exact Fin.ext hr
  | ⟨1, _⟩ => exact Fin.ext hc

end PairGather

/-! ## Two columns side by side

The concatenation of two `[n, 1]` columns along axis 1 reads the first column at `(p, 0)` and the second at `(p, 1)`. -/

section Columns
variable {α : Type}

theorem concat_cols_left {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) :=
  concatenate_pair_apply_left 1 a b h _ rfl _ (fun c => by match c with | ⟨0, _⟩ => rfl | ⟨1, _⟩ => rfl)

theorem concat_cols_right {n : Nat} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) :=
  concatenate_pair_apply_right 1 a b h _ rfl rfl _
    (fun c hc => by match c with | ⟨0, _⟩ => rfl | ⟨1, _⟩ => exact absurd rfl hc) rfl

end Columns

/-! ## Index words

A word below 2³¹ is not negative: the wrap `select (t < 0) (t + n) t` leaves it, and read signed and clamped into
`[0, N - 1]` with `t < N` it is its own value. -/

theorem wrap_id (t a : BitVec 32) (ht : t.toNat < 2 ^ 31) : Scalar.select (IntOp.cmpi .slt t 0#32) a t = t := by
  have h : ¬ IntOp.cmpi .slt t 0#32 = 1#1 := fun h => by
    have := (StableHlo.Predicate.slt_iff_toNat ht (by decide)).1 h
    simp at this
  rw [eq_zero_of_ne_one h, select_zero]

theorem clamp_toNat (v : BitVec 32) (N : Nat) (hv : v.toNat < N) (hN : N ≤ 2 ^ 31) :
    min v.toInt.toNat (N - 1) = v.toNat := by
  rw [StableHlo.Predicate.toInt_eq_toNat_of_lt (by omega), Int.toNat_natCast]; omega

/-! ## The program's stages at a row

The stages the program's index-by-index reading leaves open, each at row `p`: the two columns of start indices, the
concatenated pair, the two gathers, the maximum of all logits, and the weighted row sum. -/

section Stages

open Cert.ReferenceIdeal Cert.ReferenceIdeal.Read

/-- The column of row numbers: row `p` holds the word `p` (the iota is never negative, so it is not wrapped). -/
theorem rowCol_apply (p : Fin 4096) :
    val_main_v20 (F := Ideal) (ix2 p (0 : Fin 1)) = BitVec.ofNat 32 p.val := by
  rw [val_main_v20_apply, val_main_v14_apply, val_main_v11_apply, val_main_v10_apply, val_main_c_apply, val_main_v9_apply]
  exact wrap_id (BitVec.ofNat 32 p.val) _ (by
    rw [BitVec.toNat_ofNat]; have := p.isLt; omega)

/-- The column of labels paired with the rows: a label in `[0, 32000)` is not wrapped. -/
theorem labelCol_apply (x1 : (⟨S4096, .i32⟩ : BufTy).Contents (Elt Ideal)) (p : Fin 4096)
    (ht : (x1 (ix1 p)).toNat < 32000) :
    val_main_v21 (F := Ideal) x1 (ix2 p (0 : Fin 1)) = x1 (ix1 p) := by
  have e : idx_main_v21 (ix2 p (0 : Fin 1)) = ix1 p := by funext a; match a with | ⟨0, _⟩ => rfl
  rw [val_main_v21_apply, e, val_main_v19_apply, val_main_v16_apply, val_main_v15_apply, val_main_c_2_apply]
  exact wrap_id _ _ (by omega)

/-- The column of labels the weight gather starts from, likewise. -/
theorem labelCol'_apply (x1 : (⟨S4096, .i32⟩ : BufTy).Contents (Elt Ideal)) (p : Fin 4096)
    (ht : (x1 (ix1 p)).toNat < 32000) :
    val_main_v29 (F := Ideal) x1 (ix2 p (0 : Fin 1)) = x1 (ix1 p) := by
  have e : idx_main_v29 (ix2 p (0 : Fin 1)) = ix1 p := by funext a; match a with | ⟨0, _⟩ => rfl
  rw [val_main_v29_apply, e, val_main_v28_apply, val_main_v25_apply, val_main_v24_apply, val_main_c_4_apply]
  exact wrap_id _ _ (by omega)

/-- The pair of start indices of row `p`: (the word `p`, the label). -/
theorem pair_apply (x1 : (⟨S4096, .i32⟩ : BufTy).Contents (Elt Ideal)) (p : Fin 4096)
    (ht : (x1 (ix1 p)).toNat < 32000) :
    val_main_v22 (F := Ideal) x1 (ix2 p (0 : Fin 2)) = BitVec.ofNat 32 p.val
      ∧ val_main_v22 (F := Ideal) x1 (ix2 p (1 : Fin 2)) = x1 (ix1 p) := by
  unfold val_main_v22
  exact ⟨(concat_cols_left _ _ _ p).trans (rowCol_apply p), (concat_cols_right _ _ _ p).trans (labelCol_apply x1 p ht)⟩

/-- The weight gather at row `p`: the weight of the label's class. -/
theorem labelWeight_apply (x1 : (⟨S4096, .i32⟩ : BufTy).Contents (Elt Ideal))
    (x2 : (⟨S32000, .f32⟩ : BufTy).Contents (Elt Ideal)) (p : Fin 4096) (ht : (x1 (ix1 p)).toNat < 32000) :
    val_main_v30 (F := Ideal) x1 x2 (ix1 p) = x2 (ix1 (classOf (x1 (ix1 p)))) := by
  have e1 : (ix1 p : (⟨1, ![4096]⟩ : Shape).Idx) = Shape.Idx.ofFin p := by
    funext a; match a with | ⟨0, _⟩ => rfl
  have e2 : (StableHlo.Predicate.ixP p : (⟨2, ![4096, 1]⟩ : Shape).Idx) = ix2 p (0 : Fin 1) := by
    funext a; match a with | ⟨0, _⟩ => rfl | ⟨1, _⟩ => rfl
  unfold val_main_v30
  rw [e1, StableHlo.Predicate.gather_take gather_S32000_S4096x1_S4096_n_0_n_n_0_1_1 rfl rfl rfl rfl x2 _ p (by decide)]
  congr 1
  funext a
  match a with
  | ⟨0, _⟩ =>
    refine Fin.ext ?_
    show min (val_main_v29 (F := Ideal) x1 (StableHlo.Predicate.ixP p)).toInt.toNat (32000 - 1)
      = (classOf (x1 (Shape.Idx.ofFin p))).val
    rw [← e1, e2, labelCol'_apply x1 p ht, clamp_toNat _ 32000 ht (by decide), classOf_val_of_lt ht]

/-- The maximum of all logits is a real number when every logit is. -/
theorem globalMax_real (x0 : (⟨S4096x32000, .f32⟩ : BufTy).Contents (Elt Ideal)) (xr : S4096x32000.Idx → ℝ)
    (hxr : ∀ i, x0 i = ((xr i : ℝ) : EReal)) :
    ∃ C : ℝ, ∀ j, val_main_v0 (F := Ideal) x0 j = ((C : ℝ) : EReal) := by
  obtain ⟨C, hC⟩ := fold_max_bot_coe (Finset.univ : Finset S4096x32000.Idx) xr
    ⟨ix2 (0 : Fin 4096) (0 : Fin 32000), Finset.mem_univ _⟩
  refine ⟨C, fun j => ?_⟩
  have hx0 : x0 = fun i => ((xr i : ℝ) : EReal) := funext hxr
  unfold val_main_v0
  rw [Host.reduce_eq_fold, Finset.filter_true_of_mem (fun i _ => funext fun a => a.elim0), val_main_cst_apply, hx0]
  rw [show FloatOps.ofBits (F := Ideal) .f32 0xFF800000#32 = (⊥ : EReal) from Cert.RowRead.word_neg_inf]
  exact hC

/-- The logit gather at row `p`: the label's logit less the maximum of all logits. -/
theorem labelLogit_apply (x0 : (⟨S4096x32000, .f32⟩ : BufTy).Contents (Elt Ideal))
    (x1 : (⟨S4096, .i32⟩ : BufTy).Contents (Elt Ideal)) (C : EReal)
    (hC : ∀ j, val_main_v0 (F := Ideal) x0 j = C) (p : Fin 4096) (ht : (x1 (ix1 p)).toNat < 32000) :
    val_main_v23 (F := Ideal) x0 x1 (ix1 p) = x0 (ix2 p (classOf (x1 (ix1 p)))) - C := by
  obtain ⟨h0, h1⟩ := pair_apply x1 p ht
  unfold val_main_v23
  rw [gather_pair_of gather_S4096x32000_S4096x2_S4096_n_01_n_n_01_1_11 rfl rfl rfl rfl _ _ p p (classOf (x1 (ix1 p)))
    (by rw [h0, clamp_toNat _ 4096 (by rw [BitVec.toNat_ofNat]; have := p.isLt; omega) (by decide), BitVec.toNat_ofNat]
        have := p.isLt; omega)
    (by rw [h1, clamp_toNat _ 32000 ht (by decide), classOf_val_of_lt ht])]
  rw [val_main_v2_apply, val_main_v1_apply, hC]
  rfl

/-- The weighted sum of row `r`: the sum over the classes of the weight times the exponential of the shifted logit. -/
theorem rowSum_apply (x0 : (⟨S4096x32000, .f32⟩ : BufTy).Contents (Elt Ideal))
    (x2 : (⟨S32000, .f32⟩ : BufTy).Contents (Elt Ideal)) (C : EReal)
    (hC : ∀ j, val_main_v0 (F := Ideal) x0 j = C) (r : Fin 4096) :
    val_main_v7 (F := Ideal) x0 x2 (ix1 r) = ∑ k : Fin 32000, x2 (ix1 k) * Ideal.exp (x0 (ix2 r k) - C) := by
  rw [val_main_v7_apply, val_main_cst_0_apply]
  rw [show FloatOps.ofBits (F := Ideal) .f32 0x00000000#32 = (0 : EReal) from Cert.RowRead.word_zero, zero_add]
  refine Finset.sum_congr rfl fun k _ => ?_
  have e1 : idx_main_v7 (ix1 r) k = ix2 r k := by funext a; match a with | ⟨0, _⟩ => rfl | ⟨1, _⟩ => rfl
  have e2 : idx_main_v3 (idx_main_v5 (ix2 r k)) = ix1 k := by funext a; match a with | ⟨0, _⟩ => rfl
  rw [e1, val_main_v6_apply, val_main_v5_apply, val_main_v3_apply, e2, val_main_v4_apply, val_main_v2_apply,
    val_main_v1_apply, hC]
  rfl

end Stages

/-! ## The result

Row `p` of the result is `-(w y) · ((log (w y) + (x p y - C)) - log Σ_k w k · exp (x p k - C))` with `y` the label's class
and `C` the maximum of all logits, a real number; in real numbers the shift `C` cancels. -/

section Result

open Cert.ReferenceIdeal Cert.ReferenceIdeal.Read

theorem result_eq_loss (x0 : (⟨Cert.ReferenceIdeal.S4096x32000, .f32⟩ : BufTy).Contents (Elt Ideal))
    (x1 : (⟨Cert.ReferenceIdeal.S4096, .i32⟩ : BufTy).Contents (Elt Ideal))
    (x2 : (⟨Cert.ReferenceIdeal.S32000, .f32⟩ : BufTy).Contents (Elt Ideal))
    (hx : ∀ i, ∃ r : ℝ, x0 i = (r : EReal)) (hw : ∀ k, ∃ r : ℝ, x2 k = (r : EReal))
    (ht : ∀ i, (x1 i).toNat < 32000) :
    Cert.ReferenceIdeal.Read.val_main_v35 (F := Ideal) x0 x1 x2 = BalancedSoftmax.loss x0 x1 x2 := by
  choose xr hxr using hx
  choose wr hwr using hw
  obtain ⟨C, hC⟩ := globalMax_real x0 xr hxr
  funext i
  obtain ⟨p, rfl⟩ : ∃ p, i = ix1 p := ⟨i 0, eq_ix1 i⟩
  have htp := ht (ix1 p)
  rw [val_main_v35_apply, val_main_v34_apply, val_main_v33_apply, val_main_v32_apply, val_main_v31_apply,
    val_main_v8_apply, labelWeight_apply x1 x2 p htp, labelLogit_apply x0 x1 _ hC p htp, rowSum_apply x0 x2 _ hC p]
  have hsum : (∑ k : Fin 32000, x2 (ix1 k) * Ideal.exp (x0 (ix2 p k) - ((C : ℝ) : EReal)))
      = ((∑ k : Fin 32000, wr (ix1 k) * Real.exp (xr (ix2 p k) - C) : ℝ) : EReal) := by
    rw [← coe_sum]
    refine Finset.sum_congr rfl fun k _ => ?_
    rw [hwr (ix1 k), hxr (ix2 p k), ← EReal.coe_sub, exp_coe, ← EReal.coe_mul]
  have hpart := partition_coe x0 x2 (fun r j => xr (ix2 r j)) (fun j => wr (ix1 j)) (fun r j => hxr _)
    (fun j => hwr _) p
  rw [hsum, hxr (ix2 p (classOf (x1 (ix1 p))))]
  simp only [Ideal.mulf_def, Ideal.addf_def, Ideal.subf_def, Ideal.hostUnary_log_def, Ideal.hostNegf_def, Ideal.negf_def]
  rw [shift_cancel_sub Finset.univ (fun k => wr (ix1 k)) (fun k => xr (ix2 p k)) _ _ C, ← hpart,
    ← hxr (ix2 p (classOf (x1 (ix1 p))))]
  rfl

end Result

end BalancedSoftmax.Ref

end
-- ==== Proof.KPieces.lean ====
import proofs.«404558_j17944373362748_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace BalancedSoftmax.Pieces

open Cert.KernelIdeal Cert.KernelIdeal.Gen

variable {F : FTy → Type} [FloatOps F]

/-! What each control case of the body leaves in the three carried accumulators and in the output block, as the
    body's own arithmetic applied to the blocks it loaded.

    * the first chunk of a row tile (case A) resets the running maximum to `-∞` and the two running sums to `0`,
      then updates them from the chunk: the update reads the reset values back;
    * a middle chunk (case B) updates the three accumulators from what the chunk before left;
    * the last chunk (case C) does the same and then writes the loss from the three FRESH accumulators. -/

theorem hz : (![0, 0] : Fin 2 → Nat) = fun _ => 0 := funext fun a => by fin_cases a <;> rfl

theorem sA_0 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x3200 .f32) (x1 : Vec F S1x3200 .f32) (x2 : Vec F S512x1 .f32) (x3 : Vec F S512x1 .i32) :
    sout0_A_0 c i arg2 harg2 arg3 harg3 arg4 harg4 arg5 harg5 arg6 harg6 arg7 harg7 arg8 harg8 arg9 harg9 hc0 hc1 x0 x1 x2 x3 = k0_pay8 x0 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sA_1 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x3200 .f32) (x1 : Vec F S1x3200 .f32) (x2 : Vec F S512x1 .f32) (x3 : Vec F S512x1 .i32) :
    sout0_A_1 c i arg2 harg2 arg3 harg3 arg4 harg4 arg5 harg5 arg6 harg6 arg7 harg7 arg8 harg8 arg9 harg9 hc0 hc1 x0 x1 x2 x3 = k0_pay7 x0 x1 (k0_pay3 (F := F)) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sA_2 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x3200 .f32) (x1 : Vec F S1x3200 .f32) (x2 : Vec F S512x1 .f32) (x3 : Vec F S512x1 .i32) :
    sout0_A_2 c i arg2 harg2 arg3 harg3 arg4 harg4 arg5 harg5 arg6 harg6 arg7 harg7 arg8 harg8 arg9 harg9 hc0 hc1 x0 x1 x2 x3 = k0_pay1 x0 (k0_pay9 (F := F) i x3) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x1) hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sB_0 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_B_0 c i arg2 harg2 arg3 harg3 arg4 harg4 arg5 harg5 arg6 harg6 arg7 harg7 arg8 harg8 arg9 harg9 hc0 hc1 x0 x1 x2 x3 xs0 xs1 xs2 = k0_pay8 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sB_1 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_B_1 c i arg2 harg2 arg3 harg3 arg4 harg4 arg5 harg5 arg6 harg6 arg7 harg7 arg8 harg8 arg9 harg9 hc0 hc1 x0 x1 x2 x3 xs0 xs1 xs2 = k0_pay7 x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sB_2 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_B_2 c i arg2 harg2 arg3 harg3 arg4 harg4 arg5 harg5 arg6 harg6 arg7 harg7 arg8 harg8 arg9 harg9 hc0 hc1 x0 x1 x2 x3 xs0 xs1 xs2 = k0_pay1 x0 (k0_pay9 (F := F) i x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sC_0 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_C_0 c i arg2 harg2 arg3 harg3 arg4 harg4 arg5 harg5 arg6 harg6 arg7 harg7 arg8 harg8 arg9 harg9 hc0 hc1 x0 x1 x2 x3 xs0 xs1 xs2 = k0_pay8 x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sC_1 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_C_1 c i arg2 harg2 arg3 harg3 arg4 harg4 arg5 harg5 arg6 harg6 arg7 harg7 arg8 harg8 arg9 harg9 hc0 hc1 x0 x1 x2 x3 xs0 xs1 xs2 = k0_pay7 x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem sC_2 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    sout0_C_2 c i arg2 harg2 arg3 harg3 arg4 harg4 arg5 harg5 arg6 harg6 arg7 harg7 arg8 harg8 arg9 harg9 hc0 hc1 x0 x1 x2 x3 xs0 xs1 xs2 = k0_pay1 x0 (k0_pay9 (F := F) i x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

theorem oC_4 (c : Dev nD) (i : grid0.Coords) (arg2 : Memref sig .tc .vmem S512x3200 .f32) (harg2 : arg2.IsWhole) (arg3 : Memref sig .tc .vmem S1x3200 .f32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x3200 .f32) (x1 : Vec F S1x3200 .f32) (x2 : Vec F S512x1 .f32) (x3 : Vec F S512x1 .i32) (xs0 : Vec F S512x1 .f32) (xs1 : Vec F S512x1 .f32) (xs2 : Vec F S512x1 .f32) :
    out0_C_4 c i arg2 harg2 arg3 harg3 arg4 harg4 arg5 harg5 arg6 harg6 arg7 harg7 arg8 harg8 arg9 harg9 hc0 hc1 x0 x1 x2 x3 xs0 xs1 xs2
      = k0_pay2 (k0_pay8 x0 xs0) (k0_pay7 x0 x1 xs0 xs1) x2 (k0_pay1 x0 (k0_pay9 (F := F) i x3) xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readAt_eq_ld, harg2.read_unread, harg3.read_unread, harg4.read_unread, harg5.read_unread, harg7.read_unread, harg8.read_unread, harg9.read_unread, View.ld_unit_zero (S := S512x3200) hz, View.ld_unit_zero (S := S1x3200) hz, View.ld_unit_zero (S := S512x1) hz, View.readCov_unit_zero (S := S512x1) _ hz]

end BalancedSoftmax.Pieces

end
-- ==== Proof.KBlocks.lean ====
import proofs.«404558_j17944373362748_2_alg».proof.Proof.Gen.KernelIdeal.Frame
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace BalancedSoftmax.Blocks

open Cert.KernelIdeal Cert.KernelIdeal.Gen

variable {F : FTy → Type} [FloatOps F]
variable (m : (ℓ : Loc nD τ sig) → Buf (Elt F) ℓ)

/-! What the region finds in its five windows, and what a window's block at a grid point reads.

    The host lines before the region clip the labels into `[0, 31999]`, look the class weights up at the clipped
    labels, and lay the three small arrays out as columns / a row. Grid point `t` is row tile `t / 10`, column chunk
    `t % 10`: the logits' block covers rows `512·(t/10) + r` and classes `3200·(t%10) + q`; the weights' block the same
    classes; the label and label-weight blocks the same rows. -/

/-- The labels clipped into `[0, 31999]` (signed), as the host computes them. -/
def clipped (t : IVec S4096 32) : IVec S4096 32 :=
  minsi (broadcastInDim S4096 ![] bcast_S_S4096 (constantI S_ 32 31999#32))
    (maxsi (broadcastInDim S4096 ![] bcast_S_S4096 (constantI S_ 32 0#32)) t)

/-- The start indices of the weight lookup: the clipped labels, a negative one wrapped by the table's length, as a column. -/
def lookupIdx (t : IVec S4096 32) : IVec S4096x1 32 :=
  broadcastInDim S4096x1 ![0] bcast_S4096_S4096x1_0
    (select (cmpi .slt (clipped t) (broadcastInDim S4096 ![] bcast_S_S4096 (constantI S_ 32 0#32)))
      (addi (clipped t) (broadcastInDim S4096 ![] bcast_S_S4096 (constantI S_ 32 32000#32))) (clipped t))

/-- Window 1's array: the class weights as one row. -/
theorem V_weights (c : Dev nD) : (V m c main_v10 : S1x32000.Idx → F .f32)
    = shapeCast S1x32000 (m ((c : Thread nD τ).loc main_arg2)) shapeCasts_S32000_S1x32000 := by
  dsimp only [Gen.V, Gen.V0]
  simp only [Gen.hostOps0, Gen.hostOps0_1, Gen.hostOps0_2, List.flatten_cons, List.flatten_nil, List.append_nil, List.cons_append, List.nil_append]
  after_results
  rfl

/-- Window 3's array: the clipped labels as a column. -/
theorem V_labels (c : Dev nD) : (V m c main_v9 : S4096x1.Idx → BitVec 32)
    = shapeCast S4096x1 (clipped (m ((c : Thread nD τ).loc main_arg1))) shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 4000000 in
/-- Window 2's array: the class weight at each row's clipped label, as a column. -/
theorem V_labelWeights (c : Dev nD) : (V m c main_v8 : S4096x1.Idx → F .f32)
    = shapeCast S4096x1 (Host.gather gather_S32000_S4096x1_S4096_n_0_n_n_0_1_1 (m ((c : Thread nD τ).loc main_arg2))
        (lookupIdx (m ((c : Thread nD τ).loc main_arg1)))) shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

/-- Which block each window reads at point `t`: the row tile is `t / 10`, the column chunk `t % 10`. -/
theorem idx_facts : ∀ t : Fin cfg0.N,
    win0_0.index t (0 : Fin 2) = t.val / 10 ∧ win0_0.index t (1 : Fin 2) = t.val % 10
    ∧ win0_1.index t (0 : Fin 2) = 0 ∧ win0_1.index t (1 : Fin 2) = t.val % 10
    ∧ win0_2.index t (0 : Fin 2) = t.val / 10 ∧ win0_2.index t (1 : Fin 2) = 0
    ∧ win0_3.index t (0 : Fin 2) = t.val / 10 ∧ win0_3.index t (1 : Fin 2) = 0
    ∧ win0_4.index t (0 : Fin 2) = t.val / 10 ∧ win0_4.index t (1 : Fin 2) = 0 :=
  (by decide +kernel : ∀ t : Fin grid0.N, _)

theorem lt80 (t : Fin cfg0.N) : t.val < 80 := lt_of_lt_of_eq t.isLt (show cfg0.N = 80 from N_0)

/-- The logits' block at point `t`, entry `(r, q)`: the logit of row `512·(t/10) + r`, class `3200·(t%10) + q`. -/
theorem logits_block (c : Dev nD) (t : Fin cfg0.N) (r : Fin 512) (q : Fin 3200) :
    (iblk m c 0 t : Vec F S512x3200 .f32) (ix2 r q)
      = m ((c : Thread nD τ).loc main_arg0) (ix2 (⟨512 * (t.val / 10) + r.val, by have := lt80 t; omega⟩ : Fin 4096)
          (⟨3200 * (t.val % 10) + q.val, by have := lt80 t; omega⟩ : Fin 32000)) := by
  obtain ⟨h0, h1, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 10) + r.val; rw [h0]; omega
  | ⟨1, _⟩ => show win0_0.index t 1 * 3200 + 1 * q.val = 3200 * (t.val % 10) + q.val; rw [h1]; omega

/-- The weights' block at point `t`, entry `(0, q)`: the row of weights at class `3200·(t%10) + q`. -/
theorem weights_block (c : Dev nD) (t : Fin cfg0.N) (q : Fin 3200) :
    (iblk m c 1 t : Vec F S1x3200 .f32) (ix2 (0 : Fin 1) q)
      = (V m c main_v10 : S1x32000.Idx → F .f32) (ix2 (0 : Fin 1) (⟨3200 * (t.val % 10) + q.val, by have := lt80 t; omega⟩ : Fin 32000)) := by
  obtain ⟨-, -, h0, h1, -⟩ := idx_facts t
  unfold iblk
  rw [View.read_apply]
  show V m c main_v10 _ = _
  congr 1
  funext a
  apply Fin.ext
  match a with
  | ⟨0, _⟩ => show win0_1.index t 0 * 1 + 1 * 0 = 0; rw [h0]
  | ⟨1, _⟩ => show win0_1.index t 1 * 3200 + 1 * q.val = 3200 * (t.val % 10) + q.val; rw [h1]; omega

/-- The label-weight block at point `t`, entry `(r, 0)`: the column's entry of row `512·(t/10) + r`. -/
theorem labelWeights_block (c : Dev nD) (t : Fin cfg0.N) (r : Fin 512) :
    (iblk m c 2 t : Vec F S512x1 .f32) (ix2 r (0 : Fin 1))
      = (V m c main_v8 : S4096x1.Idx → F .f32) (ix2 (⟨512 * (t.val / 10) + r.val, by have := lt80 t; omega⟩ : Fin 4096) (0 : Fin 1)) := by
  obtain ⟨-, -, -, -, h0, h1, -⟩ := idx_facts t
  unfold iblk
  rw [View.read_apply]
  show V m c main_v8 _ = _
  congr 1
  funext a
  apply Fin.ext
  match a with
  | ⟨0, _⟩ => show win0_2.index t 0 * 512 + 1 * r.val = 512 * (t.val / 10) + r.val; rw [h0]; omega
  | ⟨1, _⟩ => show win0_2.index t 1 * 1 + 1 * 0 = 0; rw [h1]

/-- The label block at point `t`, entry `(r, 0)`: the column's entry of row `512·(t/10) + r`. -/
theorem labels_block (c : Dev nD) (t : Fin cfg0.N) (r : Fin 512) :
    (iblk m c 3 t : Vec F S512x1 .i32) (ix2 r (0 : Fin 1))
      = (V m c main_v9 : S4096x1.Idx → BitVec 32) (ix2 (⟨512 * (t.val / 10) + r.val, by have := lt80 t; omega⟩ : Fin 4096) (0 : Fin 1)) := by
  obtain ⟨-, -, -, -, -, -, h0, h1, -⟩ := idx_facts t
  unfold iblk
  rw [View.read_apply]
  show V m c main_v9 _ = _
  congr 1
  funext a
  apply Fin.ext
  match a with
  | ⟨0, _⟩ => show win0_3.index t 0 * 512 + 1 * r.val = 512 * (t.val / 10) + r.val; rw [h0]; omega
  | ⟨1, _⟩ => show win0_3.index t 1 * 1 + 1 * 0 = 0; rw [h1]

end BalancedSoftmax.Blocks

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.KRows.lean ====
/-
  The small windows' blocks as entries of the argument arrays, for labels in `[0, 32000)`.

  A label in range is a non-negative word below 32000: clipping it into `[0, 31999]` changes nothing, it is not
  wrapped by the table's length, and the lookup's clamp leaves it alone. So, at grid point `t` and block row `r`
  (global row `ρ = 512·(t/10) + r`): the label block holds row `ρ`'s label, the label-weight block the weight of that
  label's class, and the weights' block the weights of classes `3200·(t%10) + q`.
-/
import proofs.«404558_j17944373362748_2_alg».proof.Proof.KBlocks
import proofs.«404558_j17944373362748_2_alg».proof.Proof.LibColumn
import proofs.«404558_j17944373362748_2_alg».proof.Proof.Spec
import Idealize.ShloMosaic.Lib.SortFacts

set_option maxRecDepth 16384

noncomputable section

open Idealize.ShloMosaic Idealize.ShloMosaic.TcCoe Idealize.SL.Sem Idealize.ShloMosaic.ValueIdx

namespace BalancedSoftmax.Rows

open Cert.KernelIdeal Cert.KernelIdeal.Gen BalancedSoftmax BalancedSoftmax.Blocks

variable {F : FTy → Type} [FloatOps F]
variable (m : (ℓ : Loc nD τ sig) → Buf (Elt F) ℓ)

/-- A word below 32000 read signed is its value. -/
theorem toInt_of_lt (v : BitVec 32) (h : v.toNat < 32000) : v.toInt = (v.toNat : ℤ) := by
  rw [BitVec.toInt_eq_toNat_cond, if_pos (by omega)]

/-- Clipping a label in range into `[0, 31999]` is the identity. -/
theorem clip_id (v : BitVec 32) (h : v.toNat < 32000) : IntOp.minsi 31999#32 (IntOp.maxsi 0#32 v) = v := by
  have hv := toInt_of_lt v h
  have h0 : (0#32 : BitVec 32).toInt = 0 := by decide
  have h1 : (31999#32 : BitVec 32).toInt = 31999 := by decide
  have e1 : IntOp.maxsi 0#32 v = v := by
    unfold IntOp.maxsi
    rw [if_neg]
    simp only [BitVec.slt, hv, h0, decide_eq_true_eq]; omega
  rw [e1]
  unfold IntOp.minsi
  rw [if_neg]
  simp only [BitVec.slt, hv, h1, decide_eq_true_eq]; omega

theorem clipped_apply (t : IVec S4096 32) (p : Fin 4096) (h : (t (ix1 p)).toNat < 32000) :
    clipped t (ix1 p) = t (ix1 p) := by
  show IntOp.minsi 31999#32 (IntOp.maxsi 0#32 (t (ix1 p))) = _
  exact clip_id _ h

/-- A vector laid out as one row reads, at `(0, k)`, the vector at `k`. -/
theorem row_of_vector_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_two, Shape.rowMajor_val_one]
    show k.val = 0 * n + k.val
    omega)

/-- The weight lookup at a row whose start index is a label `v` in range reads the weight of `v`'s class: the
    lookup clamps the signed start index into the table, and a label in range is already inside. -/
theorem lookup_apply {α : Type} (d : GatherDims ⟨1, ![32000]⟩ ⟨2, ![4096, 1]⟩ ⟨1, ![4096]⟩)
    (hcoll : d.collapsedSliceDims = [0]) (hob : d.operandBatchingDims = [])
    (hsim : d.startIndexMap = [0]) (hivd : d.indexVectorDim = 1)
    (w : (⟨1, ![32000]⟩ : Shape).Idx → α) (idx : IVec ⟨2, ![4096, 1]⟩ 32) (p : Fin 4096) (v : BitVec 32)
    (hv : v.toNat < 32000) (hidx : idx (StableHlo.Predicate.ixP p) = v) :
    Host.gather d w idx (ix1 p) = w (ix1 (classOf v)) := by
  subst hidx
  have hix : (ix1 p : (⟨1, ![4096]⟩ : Shape).Idx) = Shape.Idx.ofFin p := Shape.Idx.eq_ofFin _
  rw [hix, StableHlo.Predicate.gather_take d hcoll hob hsim hivd w idx p (by decide)]
  congr 1
  funext a
  have ha : a = 0 := Subsingleton.elim _ _
  subst ha
  apply Fin.ext
  show min (idx (StableHlo.Predicate.ixP p)).toInt.toNat (32000 - 1) = (classOf (idx (StableHlo.Predicate.ixP p))).val
  rw [classOf_val_of_lt hv, toInt_of_lt _ hv, Int.toNat_natCast]
  omega

/-- The start index of the lookup at a row whose label is in range is that label. -/
theorem lookupIdx_apply (t : IVec S4096 32) (p : Fin 4096) (h : (t (ix1 p)).toNat < 32000) :
    lookupIdx t (StableHlo.Predicate.ixP p) = t (ix1 p) := by
  have hix : (ix1 p : S4096.Idx) = Shape.Idx.ofFin p := Shape.Idx.eq_ofFin _
  unfold lookupIdx
  rw [StableHlo.Predicate.bcast_col1, ← hix]
  show Scalar.select (IntOp.cmpi .slt (clipped t (ix1 p)) 0#32) (IntOp.addi (clipped t (ix1 p)) 32000#32) (clipped t (ix1 p)) = _
  rw [clipped_apply t p h]
  have hneg : IntOp.cmpi .slt (t (ix1 p)) 0#32 = 0#1 := by
    unfold IntOp.cmpi
    have h0 : (0#32 : BitVec 32).toInt = 0 := by decide
    have : ¬ ((t (ix1 p)).toNat : ℤ) < 0 := by omega
    simp [BitVec.slt, toInt_of_lt _ h, h0, this]
  rw [hneg, select_zero]

/-- The global row of block row `r` at point `t`. -/
abbrev rowOf (t : Fin cfg0.N) (r : Fin 512) : Fin 4096 := ⟨512 * (t.val / 10) + r.val, by have := lt80 t; omega⟩
/-- The class of chunk column `q` at point `t`. -/
abbrev classAt (t : Fin cfg0.N) (q : Fin 3200) : Fin 32000 := ⟨3200 * (t.val % 10) + q.val, by have := lt80 t; omega⟩

/-- The label block holds the rows' labels. -/
theorem label_entry (c : Dev nD) (t : Fin cfg0.N) (r : Fin 512)
    (hT : ∀ i, (m ((c : Thread nD τ).loc main_arg1) i).toNat < 32000) :
    (iblk m c 3 t : Vec F S512x1 .i32) (ix2 r (0 : Fin 1)) = m ((c : Thread nD τ).loc main_arg1) (ix1 (rowOf t r)) := by
  rw [labels_block, V_labels, Column.shapeCast_a_a1_apply]
  exact clipped_apply _ _ (hT _)

/-- The weights' block holds the chunk's class weights. -/
theorem weight_entry (c : Dev nD) (t : Fin cfg0.N) (q : Fin 3200) :
    (iblk m c 1 t : Vec F S1x3200 .f32) (ix2 (0 : Fin 1) q) = m ((c : Thread nD τ).loc main_arg2) (ix1 (classAt t q)) := by
  rw [weights_block, V_weights]
  exact row_of_vector_apply _ _ _

/-- The label-weight block holds the weight of each row's label's class. -/
theorem labelWeight_entry (c : Dev nD) (t : Fin cfg0.N) (r : Fin 512)
    (hT : ∀ i, (m ((c : Thread nD τ).loc main_arg1) i).toNat < 32000) :
    (iblk m c 2 t : Vec F S512x1 .f32) (ix2 r (0 : Fin 1))
      = m ((c : Thread nD τ).loc main_arg2) (ix1 (classOf (m ((c : Thread nD τ).loc main_arg1) (ix1 (rowOf t r))))) := by
  rw [labelWeights_block, V_labelWeights, Column.shapeCast_a_a1_apply]
  exact lookup_apply gather_S32000_S4096x1_S4096_n_0_n_n_0_1_1 rfl rfl rfl rfl _ _ (rowOf t r) _ (hT (ix1 (rowOf t r)))
    (lookupIdx_apply _ _ (hT (ix1 (rowOf t r))))

end BalancedSoftmax.Rows

end
-- ==== Proof.KPayload.lean ====
/-
  The block body's arithmetic, read entry by entry over the extended reals.

  One block of the kernel sees 512 rows and 3200 of the 32000 classes. Per row it keeps three running
  quantities: the maximum m of the logits seen so far, the weighted sum l = Σ w_q · exp (x_q - m) over the
  classes seen so far, and the logit t of the row's label once its class has been seen. Each value the body
  stores is read here at a row r (the unit column is 0) as the scalar expression it is:

    * the new maximum is max (m, the row's maximum over the block's 3200 columns);
    * the new sum is l · exp (m - m') + Σ_q w_q · exp (x_{r,q} - m'), m' the new maximum;
    * the label mask at (r, q) in block j compares q + 3200 · j with the row's label, and it is set exactly
      when they are equal as numbers;
    * the new label logit is t + Σ_q (x_{r,q} where the mask is set, else 0);
    * the result is (0 - w_y) · ((log w_y + t) - (m + log l));
    * the starting values are -∞, 0 and 0.
-/
import proofs.«404558_j17944373362748_2_alg».proof.Proof.Gen.KernelIdeal.Skeleton
import proofs.«404558_j17944373362748_2_alg».proof.Proof.LibColumn
import proofs.«404558_j17944373362748_2_alg».proof.Proof.LibRowRead
import Idealize.ShloMosaic.Lib.ValueIdx
import Idealize.ShloMosaic.Lib.Pipeline.Value
import Idealize.ShloMosaic.Lib.ValueLayout
import Idealize.ShloMosaic.PureOps.Ideal.Laws

noncomputable section

namespace BalancedSoftmax.Kernel

open Cert.KernelIdeal Cert.KernelIdeal.Gen Idealize.ShloMosaic Idealize.ShloMosaic.ValueIdx

variable [Cert.KernelIdeal.Facts]

/-- The new running maximum of row r: the old one against the row's maximum over the block's columns. -/
theorem newmax_at (v3 : Vec Ideal S512x3200 .f32) (v10 : Vec Ideal S512x1 .f32) (r : Fin 512) :
    k0_pay6 (F := Ideal) v3 v10 (ix2 r 0)
      = max (v10 (ix2 r 0)) ((Finset.univ : Finset (Fin 3200)).fold max ⊥ (fun q => v3 (ix2 r q))) := by
  unfold k0_pay6
  refine (maximumf_apply _ _ _).trans ?_
  refine congrArg (max (v10 (ix2 r 0))) ?_
  refine (Column.shapeCast_a_a1_apply _ _ r 0).trans ?_
  exact Cert.RowRead.rowMax_f32 v3 _ _ _ r

/-- The value stored back as the running maximum is the new maximum. -/
theorem newmax_store_at (v3 : Vec Ideal S512x3200 .f32) (v10 : Vec Ideal S512x1 .f32) (r : Fin 512) :
    k0_pay8 (F := Ideal) v3 v10 (ix2 r 0) = k0_pay6 (F := Ideal) v3 v10 (ix2 r 0) := by
  unfold k0_pay8
  rw [shapeCast_self]

/-- The three starting values. -/
theorem init_max_at (r : Fin 512) : k0_pay3 (F := Ideal) (ix2 r 0) = ⊥ := by
  unfold k0_pay3
  rw [shapeCast_self]
  exact Cert.RowRead.word_neg_inf

theorem init_sum_at (r : Fin 512) : k0_pay4 (F := Ideal) (ix2 r 0) = 0 := by
  unfold k0_pay4
  rw [shapeCast_self]
  exact Cert.RowRead.word_zero

theorem init_pick_at (r : Fin 512) : k0_pay5 (F := Ideal) (ix2 r 0) = 0 := by
  unfold k0_pay5
  rw [shapeCast_self]
  exact Cert.RowRead.word_zero

/-- The new running weighted sum of row r: the old sum rescaled to the new maximum, plus the block's
    weighted exponentials taken at the new maximum. -/
theorem newsum_at (v3 : Vec Ideal S512x3200 .f32) (v4 : Vec Ideal S1x3200 .f32)
    (v10 v19 : Vec Ideal S512x1 .f32) (r : Fin 512) :
    k0_pay7 (F := Ideal) v3 v4 v10 v19 (ix2 r 0)
      = v19 (ix2 r 0) * Ideal.exp (v10 (ix2 r 0) - k0_pay6 (F := Ideal) v3 v10 (ix2 r 0))
        + ∑ q : Fin 3200, v4 (ix2 (0 : Fin 1) q)
            * Ideal.exp (v3 (ix2 r q) - k0_pay6 (F := Ideal) v3 v10 (ix2 r 0)) := by
  unfold k0_pay7
  rw [shapeCast_self, shapeCast_self]
  refine (addf_apply _ _ _).trans ?_
  refine congrArg₂ (· + ·) rfl ?_
  refine (Column.shapeCast_a_a1_apply _ _ r 0).trans ?_
  refine (Cert.RowRead.rowSum_f32 _ _ _ _ r).trans ?_
  refine Finset.sum_congr rfl fun q _ => ?_
  refine (mulf_apply _ _ _).trans ?_
  refine congrArg₂ (· * ·) (broadcastTo_1b_ab_apply v4 _ r q) ?_
  refine (Cert.RowRead.exp_apply _ _).trans ?_
  refine congrArg Ideal.exp ?_
  refine (subf_apply _ _ _).trans ?_
  exact congrArg (v3 (ix2 r q) - ·) (Column.broadcastTo_a1_ab_apply _ _ r q)

/-- The label mask at (r, q) in block i 1: the column's global class number q + 3200 · (i 1), as a 32-bit
    word, compared with the row's label word. -/
theorem mask_at (i : grid0.Coords) (v6 : Vec Ideal S512x1 .i32) (r : Fin 512) (q : Fin 3200) :
    k0_pay9 (F := Ideal) i v6 (ix2 r q)
      = IntOp.cmpi .eq
          (IntOp.addi (BitVec.ofNat 32 q.val) (Scalar.muli (BitVec.ofNat 32 (i 1).val) 3200#32))
          (v6 (ix2 r 0)) := by
  unfold k0_pay9
  rw [shapeCast_self]
  show IntOp.cmpi .eq (IntOp.addi (iota .tc S512x3200 32 [1] _ (ix2 r q)) _) (broadcastTo S512x3200 v6 _ (ix2 r q)) = _
  rw [iota_single_apply, Column.broadcastTo_a1_ab_apply v6 _ r q]
  rfl

/-- An equality test of two 32-bit words is set exactly when their numbers are equal. -/
theorem cmpi_eq_one_iff (a b : BitVec 32) : IntOp.cmpi .eq a b = 1#1 ↔ a.toNat = b.toNat := by
  show BitVec.ofBool (a == b) = 1#1 ↔ _
  by_cases hab : a = b
  · rw [hab, beq_self_eq_true]
    exact ⟨fun _ => rfl, fun _ => rfl⟩
  · rw [beq_false_of_ne hab]
    exact ⟨fun h' => absurd h' (by decide), fun h' => absurd (BitVec.eq_of_toNat_eq h') hab⟩

/-- The class number q + 3200 · j of column q in block j, j < 10, is below 2 ^ 32: the word computed for it
    is that number exactly. -/
theorem classWord_toNat (q : Fin 3200) (j : ℕ) (hj : j < 10) :
    (IntOp.addi (BitVec.ofNat 32 q.val) (Scalar.muli (BitVec.ofNat 32 j) 3200#32)).toNat = q.val + 3200 * j := by
  have hq : q.val < 3200 := q.isLt
  show (BitVec.ofNat 32 q.val + BitVec.ofNat 32 j * 3200#32).toNat = _
  rw [BitVec.toNat_add, BitVec.toNat_mul, BitVec.toNat_ofNat, BitVec.toNat_ofNat, BitVec.toNat_ofNat]
  omega

/-- The mask is set exactly when the global class number equals the label: with q < 3200 and at most ten
    blocks the class number is below 2 ^ 32, so the word on the left is that number exactly, and two words
    are equal when their numbers are. -/
theorem mask_at_iff (i : grid0.Coords) (v6 : Vec Ideal S512x1 .i32) (r : Fin 512) (q : Fin 3200) :
    k0_pay9 (F := Ideal) i v6 (ix2 r q) = 1#1 ↔ q.val + 3200 * (i 1).val = (v6 (ix2 r 0)).toNat := by
  rw [mask_at, cmpi_eq_one_iff, classWord_toNat q (i 1).val (i 1).isLt]

/-- The two cases of the mask, in the form a selection takes them. -/
theorem mask_at_eq_one (i : grid0.Coords) (v6 : Vec Ideal S512x1 .i32) (r : Fin 512) (q : Fin 3200)
    (h : q.val + 3200 * (i 1).val = (v6 (ix2 r 0)).toNat) : k0_pay9 (F := Ideal) i v6 (ix2 r q) = 1#1 :=
  (mask_at_iff i v6 r q).mpr h

theorem mask_at_eq_zero (i : grid0.Coords) (v6 : Vec Ideal S512x1 .i32) (r : Fin 512) (q : Fin 3200)
    (h : q.val + 3200 * (i 1).val ≠ (v6 (ix2 r 0)).toNat) : k0_pay9 (F := Ideal) i v6 (ix2 r q) = 0#1 :=
  eq_zero_of_ne_one fun h1 => h ((mask_at_iff i v6 r q).mp h1)

/-- The new running label logit of row r: the old one plus the block's logits under the mask. -/
theorem newpick_at (v3 : Vec Ideal S512x3200 .f32) (v35 : IVec S512x3200 1) (v36 : Vec Ideal S512x1 .f32)
    (r : Fin 512) :
    k0_pay1 (F := Ideal) v3 v35 v36 (ix2 r 0)
      = v36 (ix2 r 0) + ∑ q : Fin 3200, Scalar.select (v35 (ix2 r q)) (v3 (ix2 r q)) (0 : EReal) := by
  unfold k0_pay1
  rw [shapeCast_self]
  refine (addf_apply _ _ _).trans ?_
  refine congrArg (v36 (ix2 r 0) + ·) ?_
  refine (Column.shapeCast_a_a1_apply _ _ r 0).trans ?_
  refine (Cert.RowRead.rowSum_f32 _ _ _ _ r).trans ?_
  refine Finset.sum_congr rfl fun q _ => ?_
  refine (select_apply _ _ _ _).trans ?_
  exact congrArg (Scalar.select (v35 (ix2 r q)) (v3 (ix2 r q))) Cert.RowRead.word_zero

/-- The result of row r from the final running quantities: m = v48, l = v49, the label's weight w_y = v52
    and the label's logit t = v55. -/
theorem out_at (v48 v49 v52 v55 : Vec Ideal S512x1 .f32) (r : Fin 512) :
    k0_pay2 (F := Ideal) v48 v49 v52 v55 (ix2 r 0)
      = (0 - v52 (ix2 r 0))
        * ((Ideal.log (v52 (ix2 r 0)) + v55 (ix2 r 0)) - (v48 (ix2 r 0) + Ideal.log (v49 (ix2 r 0)))) := by
  unfold k0_pay2
  rw [shapeCast_self]
  refine (mulf_apply _ _ _).trans ?_
  refine congrArg₂ (· * ·) ?_ rfl
  refine (subf_apply _ _ _).trans ?_
  exact congrArg (· - v52 (ix2 r 0)) Cert.RowRead.word_zero

end BalancedSoftmax.Kernel

end
-- ==== Proof.KStep.lean ====
/-
  One row of the kernel, one chunk of classes at a time.

  Fix a row with real logits `xs k`, real class weights `wv k` and label `y`. After the first `n` classes the three
  accumulators of that row hold

      m = M (some real number),   l = Σ_{k<n} wv k · exp (xs k − M),   tv = Σ_{k<n} [k = y] · xs k.

  Nothing more is needed of `M` than that it is real: the shift cancels in the end. A chunk of 3200 classes keeps this
  invariant (the new maximum is a real; the old sum rescaled by `exp (M − M')` plus the chunk's sum is the longer
  sum at the new shift; the label's logit is picked up in the one chunk that holds class `y`); the reset values
  `−∞, 0, 0` before the first chunk behave like the empty sums. After all 32000 classes the body's closing formula
  is the loss of the row.
-/
import proofs.«404558_j17944373362748_2_alg».proof.Proof.KPayload
import proofs.«404558_j17944373362748_2_alg».proof.Proof.Laws
import Mathlib.Algebra.BigOperators.Fin

noncomputable section

namespace BalancedSoftmax.Step

open Cert.KernelIdeal Cert.KernelIdeal.Gen Idealize.ShloMosaic Idealize.ShloMosaic.ValueIdx BalancedSoftmax BalancedSoftmax.Kernel

variable [Cert.KernelIdeal.Facts]

/-- The three accumulators of a row after its first `n` classes. -/
def RowInv (xs wv : ℕ → ℝ) (y n : ℕ) (mv lv tv : EReal) : Prop :=
  ∃ M : ℝ, mv = (M : EReal)
    ∧ lv = ((∑ k ∈ Finset.range n, wv k * Real.exp (xs k - M) : ℝ) : EReal)
    ∧ tv = ((∑ k ∈ Finset.range n, (if k = y then xs k else 0) : ℝ) : EReal)

/-- The reset values, before any class. -/
def Start (n : ℕ) (mv lv tv : EReal) : Prop := n = 0 ∧ mv = ⊥ ∧ lv = 0 ∧ tv = 0

/-- A chunk's weighted sum of exponentials at shift `M'` is the real sum. -/
theorem chunk_sum (wv xs : ℕ → ℝ) (a : ℕ) (M' : ℝ) :
    (∑ q : Fin 3200, ((wv (a + q.val) : ℝ) : EReal) * Ideal.exp (((xs (a + q.val) : ℝ) : EReal) - (M' : EReal)))
      = ((∑ q ∈ Finset.range 3200, wv (a + q) * Real.exp (xs (a + q) - M') : ℝ) : EReal) := by
  rw [← Fin.sum_univ_eq_sum_range (fun q => wv (a + q) * Real.exp (xs (a + q) - M')) 3200, ← coe_sum]
  refine Finset.sum_congr rfl fun q _ => ?_
  rw [← EReal.coe_sub, exp_coe, ← EReal.coe_mul]

/-- A chunk's label pick is the real sum of the chunk's one-hot terms. -/
theorem chunk_pick (xs : ℕ → ℝ) (a y : ℕ) :
    (∑ q : Fin 3200, (((if a + q.val = y then xs (a + q.val) else 0 : ℝ)) : EReal))
      = ((∑ q ∈ Finset.range 3200, (if a + q = y then xs (a + q) else 0) : ℝ) : EReal) := by
  rw [← Fin.sum_univ_eq_sum_range (fun q => if a + q = y then xs (a + q) else 0) 3200, ← coe_sum]

/-- ONE CHUNK. From the reset values or from the invariant after `a` classes, the body's three updates on the chunk
    of classes `a … a + 3199` give the invariant after `a + 3200` classes. -/
theorem step (x0 : Vec Ideal S512x3200 .f32) (x1 : Vec Ideal S1x3200 .f32) (x3 : Vec Ideal S512x1 .i32) (i : grid0.Coords)
    (p0 p1 p2 : Vec Ideal S512x1 .f32) (r : Fin 512) (xs wv : ℕ → ℝ) (y a : ℕ)
    (ha : a = 3200 * (i 1).val)
    (hx0 : ∀ q : Fin 3200, x0 (ix2 r q) = ((xs (a + q.val) : ℝ) : EReal))
    (hx1 : ∀ q : Fin 3200, x1 (ix2 (0 : Fin 1) q) = ((wv (a + q.val) : ℝ) : EReal))
    (hy : (x3 (ix2 r 0)).toNat = y)
    (hprev : Start a (p0 (ix2 r 0)) (p1 (ix2 r 0)) (p2 (ix2 r 0)) ∨ RowInv xs wv y a (p0 (ix2 r 0)) (p1 (ix2 r 0)) (p2 (ix2 r 0))) :
    RowInv xs wv y (a + 3200) (k0_pay8 (F := Ideal) x0 p0 (ix2 r 0)) (k0_pay7 (F := Ideal) x0 x1 p0 p1 (ix2 r 0))
      (k0_pay1 (F := Ideal) x0 (k0_pay9 (F := Ideal) i x3) p2 (ix2 r 0)) := by
  -- the chunk's maximum is a real
  obtain ⟨Mc, hMc⟩ := fold_max_bot_coe (Finset.univ : Finset (Fin 3200)) (fun q => xs (a + q.val)) Finset.univ_nonempty
  have hfold : (Finset.univ : Finset (Fin 3200)).fold max (⊥ : EReal) (fun q => x0 (ix2 r q)) = (Mc : EReal) := by
    rw [← hMc]; exact congrArg (fun f => Finset.fold max (⊥ : EReal) f (Finset.univ : Finset (Fin 3200))) (funext hx0)
  -- the masked logit of class a + q
  have hpick : ∀ q : Fin 3200, Scalar.select (k0_pay9 (F := Ideal) i x3 (ix2 r q)) (x0 (ix2 r q)) (0 : EReal)
      = (((if a + q.val = y then xs (a + q.val) else 0 : ℝ)) : EReal) := by
    intro q
    by_cases h : a + q.val = y
    · rw [mask_at_eq_one i x3 r q (by rw [hy]; omega), select_one, hx0 q, if_pos h]
    · rw [mask_at_eq_zero i x3 r q (by rw [hy]; omega), select_zero, if_neg h]; rfl
  have hsumpick : (∑ q : Fin 3200, Scalar.select (k0_pay9 (F := Ideal) i x3 (ix2 r q)) (x0 (ix2 r q)) (0 : EReal))
      = ((∑ q ∈ Finset.range 3200, (if a + q = y then xs (a + q) else 0) : ℝ) : EReal) := by
    rw [← chunk_pick]; exact Finset.sum_congr rfl fun q _ => hpick q
  rcases hprev with ⟨ha0, hm, hl, ht⟩ | ⟨M, hm, hl, ht⟩
  · -- the first chunk: the reset values are the empty sums
    subst ha0
    have hnew : k0_pay6 (F := Ideal) x0 p0 (ix2 r 0) = (Mc : EReal) := by
      rw [newmax_at, hm, hfold]; exact max_bot_left _
    refine ⟨Mc, ?_, ?_, ?_⟩
    · rw [newmax_store_at, hnew]
    · rw [newsum_at, hnew, hl, zero_mul, zero_add]
      have e : (∑ q : Fin 3200, x1 (ix2 (0 : Fin 1) q) * Ideal.exp (x0 (ix2 r q) - (Mc : EReal)))
          = ∑ q : Fin 3200, ((wv (0 + q.val) : ℝ) : EReal) * Ideal.exp (((xs (0 + q.val) : ℝ) : EReal) - (Mc : EReal)) :=
        Finset.sum_congr rfl fun q _ => by rw [hx0 q, hx1 q]
      rw [e, chunk_sum]
      simp only [zero_add]
    · rw [newpick_at, ht, zero_add, hsumpick]
      simp only [zero_add]
  · -- a later chunk
    have hnew : k0_pay6 (F := Ideal) x0 p0 (ix2 r 0) = ((max M Mc : ℝ) : EReal) := by
      rw [newmax_at, hm, hfold, max_coe]
    refine ⟨max M Mc, ?_, ?_, ?_⟩
    · rw [newmax_store_at, hnew]
    · rw [newsum_at, hnew, hl, hm]
      have e : (∑ q : Fin 3200, x1 (ix2 (0 : Fin 1) q) * Ideal.exp (x0 (ix2 r q) - ((max M Mc : ℝ) : EReal)))
          = ∑ q : Fin 3200, ((wv (a + q.val) : ℝ) : EReal) * Ideal.exp (((xs (a + q.val) : ℝ) : EReal) - ((max M Mc : ℝ) : EReal)) :=
        Finset.sum_congr rfl fun q _ => by rw [hx0 q, hx1 q]
      rw [e, chunk_sum, ← EReal.coe_sub, exp_coe, ← EReal.coe_mul, ← EReal.coe_add, online_step]
    · rw [newpick_at, ht, hsumpick, ← EReal.coe_add, ← Finset.sum_range_add (fun k => if k = y then xs k else 0) a 3200]

/-- THE CLOSING FORMULA. With the invariant after all 32000 classes, a label `y < 32000` and the label's weight `wy`,
    the body's last expression is `−wy · ((log wy + xs y) − log Σ_k wv k · exp (xs k))`: the shift has cancelled. -/
theorem finish (v48 v49 v52 v55 : Vec Ideal S512x1 .f32) (r : Fin 512) (xs wv : ℕ → ℝ) (y : ℕ) (hy : y < 32000)
    (hinv : RowInv xs wv y 32000 (v48 (ix2 r 0)) (v49 (ix2 r 0)) (v55 (ix2 r 0))) :
    k0_pay2 (F := Ideal) v48 v49 v52 v55 (ix2 r 0)
      = -(v52 (ix2 r 0)) * ((Ideal.log (v52 (ix2 r 0)) + ((xs y : ℝ) : EReal))
          - Ideal.log ((∑ k ∈ Finset.range 32000, wv k * Real.exp (xs k) : ℝ) : EReal)) := by
  obtain ⟨M, hm, hl, ht⟩ := hinv
  have hty : (∑ k ∈ Finset.range 32000, (if k = y then xs k else 0) : ℝ) = xs y := by
    rw [Finset.sum_ite_eq' (Finset.range 32000) y xs, if_pos (Finset.mem_range.mpr hy)]
  rw [out_at, hm, hl, ht, hty, zero_sub, shift_cancel_add]

end BalancedSoftmax.Step

end
-- ==== Proof.KInvariant.lean ====
/-
  The three accumulators after every grid point.

  Grid point `t` is row tile `t / 10`, chunk `t % 10`. After point `t`, for every block row `r` (global row
  `ρ = 512·(t/10) + r`), the accumulators hold the row's invariant after its first `3200·(t%10) + 3200` classes
  (`KStep.lean`). By induction on the point: a tile's first chunk starts from the reset values, every other chunk
  from what the point before left (same tile, the chunk before).
-/
import proofs.«404558_j17944373362748_2_alg».proof.Proof.KPieces
import proofs.«404558_j17944373362748_2_alg».proof.Proof.KRows
import proofs.«404558_j17944373362748_2_alg».proof.Proof.KStep

set_option maxRecDepth 16384

noncomputable section

open Idealize.ShloMosaic Idealize.ShloMosaic.TcCoe Idealize.SL.Sem Idealize.ShloMosaic.ValueIdx

namespace BalancedSoftmax.Inv

open Cert.KernelIdeal Cert.KernelIdeal.Gen BalancedSoftmax BalancedSoftmax.Blocks BalancedSoftmax.Rows
  BalancedSoftmax.Pieces BalancedSoftmax.Step BalancedSoftmax.Kernel

variable (m : (ℓ : Loc nD τ sig) → Buf (Elt Ideal) ℓ) (c : Dev nD)

/-- The real logits of row `ρ`, by class, as a function on the naturals (zero outside the array). -/
def xN (xr : Fin 4096 → Fin 32000 → ℝ) (ρ k : ℕ) : ℝ := if h : ρ < 4096 ∧ k < 32000 then xr ⟨ρ, h.1⟩ ⟨k, h.2⟩ else 0
/-- The real class weights as a function on the naturals. -/
def wN (wr : Fin 32000 → ℝ) (k : ℕ) : ℝ := if h : k < 32000 then wr ⟨k, h⟩ else 0
/-- Row `ρ`'s label as a natural number. -/
def labelN (ρ : ℕ) : ℕ := if h : ρ < 4096 then (m ((c : Thread nD τ).loc main_arg1) (ix1 ⟨ρ, h⟩)).toNat else 0

/-- The chunk index of a point is `t % 10`. -/
theorem coord1 : ∀ t : Fin cfg0.N, ((grid0.coords t) 1).val = t.val % 10 :=
  (by decide +kernel : ∀ t : Fin grid0.N, ((grid0.coords t) 1).val = t.val % 10)

/-! ## After each point: the accumulators as the body's arithmetic of the blocks -/

theorem acc_first (t : Fin cfg0.N) (h0 : t.val % 10 = 0) (h1 : ¬t.val % 10 = 9) :
    (outsAt0 m c t.val t.isLt).2.1 = k0_pay8 (iblk m c 0 t) (k0_pay3 (F := Ideal))
    ∧ (outsAt0 m c t.val t.isLt).2.2.1 = k0_pay7 (iblk m c 0 t) (iblk m c 1 t) (k0_pay3 (F := Ideal)) (k0_pay4 (F := Ideal))
    ∧ (outsAt0 m c t.val t.isLt).2.2.2 = k0_pay1 (iblk m c 0 t) (k0_pay9 (F := Ideal) (grid0.coords t) (iblk m c 3 t)) (k0_pay5 (F := Ideal)) := by
  rw [outsAt0_A m c t h0 h1]
  dsimp only
  exact ⟨sA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sA_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

theorem acc_middle (t : Fin cfg0.N) (h0 : ¬t.val % 10 = 0) (h1 : ¬t.val % 10 = 9) :
    (outsAt0 m c t.val t.isLt).2.1 = k0_pay8 (iblk m c 0 t) (outsAt0 m c (t.val - 1) (Nat.lt_of_le_of_lt (Nat.sub_le _ _) t.isLt)).2.1
    ∧ (outsAt0 m c t.val t.isLt).2.2.1 = k0_pay7 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = k0_pay1 (iblk m c 0 t) (k0_pay9 (F := Ideal) (grid0.coords t) (iblk m c 3 t)) (outsAt0 m c (t.val - 1) (Nat.lt_of_le_of_lt (Nat.sub_le _ _) t.isLt)).2.2.2 := by
  rw [outsAt0_B m c t h0 h1]
  dsimp only
  exact ⟨sB_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sB_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sB_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

theorem acc_last (t : Fin cfg0.N) (h0 : ¬t.val % 10 = 0) (h1 : t.val % 10 = 9) :
    (outsAt0 m c t.val t.isLt).2.1 = k0_pay8 (iblk m c 0 t) (outsAt0 m c (t.val - 1) (Nat.lt_of_le_of_lt (Nat.sub_le _ _) t.isLt)).2.1
    ∧ (outsAt0 m c t.val t.isLt).2.2.1 = k0_pay7 (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = k0_pay1 (iblk m c 0 t) (k0_pay9 (F := Ideal) (grid0.coords t) (iblk m c 3 t)) (outsAt0 m c (t.val - 1) (Nat.lt_of_le_of_lt (Nat.sub_le _ _) t.isLt)).2.2.2
    ∧ (outsAt0 m c t.val t.isLt).1 = k0_pay2 (outsAt0 m c t.val t.isLt).2.1 (outsAt0 m c t.val t.isLt).2.2.1 (iblk m c 2 t) (outsAt0 m c t.val t.isLt).2.2.2 := by
  rw [outsAt0_C m c t h0 h1]
  dsimp only
  refine ⟨sC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ?_⟩
  rw [sC_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sC_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact oC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## The blocks' entries as reals -/

section Reals

variable (xr : Fin 4096 → Fin 32000 → ℝ) (wr : Fin 32000 → ℝ)
  (hX : ∀ p k, m ((c : Thread nD τ).loc main_arg0) (ix2 p k) = ((xr p k : ℝ) : EReal))
  (hW : ∀ k, m ((c : Thread nD τ).loc main_arg2) (ix1 k) = ((wr k : ℝ) : EReal))
  (hT : ∀ i, (m ((c : Thread nD τ).loc main_arg1) i).toNat < 32000)

include hX in
theorem logits_real (t : Fin cfg0.N) (r : Fin 512) (q : Fin 3200) :
    (iblk m c 0 t : Vec Ideal S512x3200 .f32) (ix2 r q)
      = ((xN xr (512 * (t.val / 10) + r.val) (3200 * (t.val % 10) + q.val) : ℝ) : EReal) := by
  have := lt80 t
  rw [logits_block, hX]
  unfold xN
  rw [dif_pos ⟨by omega, by omega⟩]

include hW in
theorem weights_real (t : Fin cfg0.N) (q : Fin 3200) :
    (iblk m c 1 t : Vec Ideal S1x3200 .f32) (ix2 (0 : Fin 1) q) = ((wN wr (3200 * (t.val % 10) + q.val) : ℝ) : EReal) := by
  have := lt80 t
  rw [weight_entry, hW]
  unfold wN
  rw [dif_pos (by omega)]

include hT in
theorem label_nat (t : Fin cfg0.N) (r : Fin 512) :
    ((iblk m c 3 t : Vec Ideal S512x1 .i32) (ix2 r (0 : Fin 1))).toNat = labelN m c (512 * (t.val / 10) + r.val) := by
  have := lt80 t
  rw [label_entry m c t r hT]
  unfold labelN
  rw [dif_pos (by omega)]

/-! ## The induction -/

include hX hW hT in
/-- After point `n`: every block row's accumulators hold its invariant after `3200·(n%10) + 3200` classes. -/
theorem inv : ∀ (n : ℕ) (h : n < cfg0.N) (r : Fin 512),
    RowInv (xN xr (512 * (n / 10) + r.val)) (wN wr) (labelN m c (512 * (n / 10) + r.val)) (3200 * (n % 10) + 3200)
      ((outsAt0 m c n h).2.1 (ix2 r 0)) ((outsAt0 m c n h).2.2.1 (ix2 r 0)) ((outsAt0 m c n h).2.2.2 (ix2 r 0)) := by
  intro n
  induction n with
  | zero =>
    intro h r
    obtain ⟨e0, e1, e2⟩ := acc_first m c ⟨0, h⟩ rfl (by show ¬(0 : ℕ) % 10 = 9; decide)
    have e0' : (outsAt0 m c 0 h).2.1 = _ := e0
    have e1' : (outsAt0 m c 0 h).2.2.1 = _ := e1
    have e2' : (outsAt0 m c 0 h).2.2.2 = _ := e2
    rw [e0', e1', e2']
    exact step (iblk m c 0 ⟨0, h⟩) (iblk m c 1 ⟨0, h⟩) (iblk m c 3 ⟨0, h⟩) (grid0.coords ⟨0, h⟩)
      (k0_pay3 (F := Ideal)) (k0_pay4 (F := Ideal)) (k0_pay5 (F := Ideal)) r _ _ _ (3200 * (0 % 10))
      (by rw [coord1 ⟨0, h⟩])
      (fun q => logits_real m c xr hX ⟨0, h⟩ r q) (fun q => weights_real m c wr hW ⟨0, h⟩ q)
      (label_nat m c hT ⟨0, h⟩ r) (Or.inl ⟨rfl, init_max_at r, init_sum_at r, init_pick_at r⟩)
  | succ n ih =>
    intro h r
    have hN : n + 1 < 80 := lt_of_lt_of_eq h (show cfg0.N = 80 from N_0)
    by_cases h0 : (n + 1) % 10 = 0
    · -- a tile's first chunk
      have h1 : ¬(n + 1) % 10 = 9 := by omega
      obtain ⟨e0, e1, e2⟩ := acc_first m c ⟨n + 1, h⟩ h0 h1
      have e0' : (outsAt0 m c (n + 1) h).2.1 = _ := e0
      have e1' : (outsAt0 m c (n + 1) h).2.2.1 = _ := e1
      have e2' : (outsAt0 m c (n + 1) h).2.2.2 = _ := e2
      rw [e0', e1', e2']
      exact step (iblk m c 0 ⟨n + 1, h⟩) (iblk m c 1 ⟨n + 1, h⟩) (iblk m c 3 ⟨n + 1, h⟩) (grid0.coords ⟨n + 1, h⟩)
        (k0_pay3 (F := Ideal)) (k0_pay4 (F := Ideal)) (k0_pay5 (F := Ideal)) r _ _ _ (3200 * ((n + 1) % 10))
        (by rw [coord1 ⟨n + 1, h⟩])
        (fun q => logits_real m c xr hX ⟨n + 1, h⟩ r q) (fun q => weights_real m c wr hW ⟨n + 1, h⟩ q)
        (label_nat m c hT ⟨n + 1, h⟩ r) (Or.inl ⟨by rw [h0], init_max_at r, init_sum_at r, init_pick_at r⟩)
    · -- a later chunk of the same tile: from what point n left
      have ih' := ih (Nat.lt_of_succ_lt h) r
      rw [show n / 10 = (n + 1) / 10 from by omega, show 3200 * (n % 10) + 3200 = 3200 * ((n + 1) % 10) from by omega] at ih'
      have hstep : ∀ (e0 : (outsAt0 m c (n + 1) h).2.1 = k0_pay8 (iblk m c 0 ⟨n + 1, h⟩) (outsAt0 m c n (Nat.lt_of_succ_lt h)).2.1)
          (e1 : (outsAt0 m c (n + 1) h).2.2.1 = k0_pay7 (iblk m c 0 ⟨n + 1, h⟩) (iblk m c 1 ⟨n + 1, h⟩) (outsAt0 m c n (Nat.lt_of_succ_lt h)).2.1 (outsAt0 m c n (Nat.lt_of_succ_lt h)).2.2.1)
          (e2 : (outsAt0 m c (n + 1) h).2.2.2 = k0_pay1 (iblk m c 0 ⟨n + 1, h⟩) (k0_pay9 (F := Ideal) (grid0.coords ⟨n + 1, h⟩) (iblk m c 3 ⟨n + 1, h⟩)) (outsAt0 m c n (Nat.lt_of_succ_lt h)).2.2.2),
          RowInv (xN xr (512 * ((n + 1) / 10) + r.val)) (wN wr) (labelN m c (512 * ((n + 1) / 10) + r.val)) (3200 * ((n + 1) % 10) + 3200)
            ((outsAt0 m c (n + 1) h).2.1 (ix2 r 0)) ((outsAt0 m c (n + 1) h).2.2.1 (ix2 r 0)) ((outsAt0 m c (n + 1) h).2.2.2 (ix2 r 0)) := by
        intro e0 e1 e2
        rw [e0, e1, e2]
        exact step (iblk m c 0 ⟨n + 1, h⟩) (iblk m c 1 ⟨n + 1, h⟩) (iblk m c 3 ⟨n + 1, h⟩) (grid0.coords ⟨n + 1, h⟩)
          (outsAt0 m c n (Nat.lt_of_succ_lt h)).2.1 (outsAt0 m c n (Nat.lt_of_succ_lt h)).2.2.1 (outsAt0 m c n (Nat.lt_of_succ_lt h)).2.2.2
          r _ _ _ (3200 * ((n + 1) % 10)) (by rw [coord1 ⟨n + 1, h⟩])
          (fun q => logits_real m c xr hX ⟨n + 1, h⟩ r q) (fun q => weights_real m c wr hW ⟨n + 1, h⟩ q)
          (label_nat m c hT ⟨n + 1, h⟩ r) (Or.inr ih')
      by_cases h1 : (n + 1) % 10 = 9
      · obtain ⟨e0, e1, e2, -⟩ := acc_last m c ⟨n + 1, h⟩ h0 h1
        exact hstep e0 e1 e2
      · obtain ⟨e0, e1, e2⟩ := acc_middle m c ⟨n + 1, h⟩ h0 h1
        exact hstep e0 e1 e2

end Reals

end BalancedSoftmax.Inv

end
-- ==== Proof.KFinal.lean ====
/-
  The kernel's result array.

  The output window is written back only after a row tile's last chunk (points `t` with `t % 10 = 9`), one block of
  512 rows per tile. What is written back for block row `r` is the body's closing formula on the three accumulators
  after all 32000 classes: the loss of row `512·(t/10) + r`. The eight blocks cover the [4096, 1] array, and the
  host's last line reshapes it to [4096].
-/
import proofs.«404558_j17944373362748_2_alg».proof.Proof.KInvariant
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace BalancedSoftmax.Final

open Cert.KernelIdeal Cert.KernelIdeal.Gen BalancedSoftmax BalancedSoftmax.Blocks BalancedSoftmax.Rows
  BalancedSoftmax.Step BalancedSoftmax.Kernel BalancedSoftmax.Inv

variable (m : (ℓ : Loc nD τ sig) → Buf (Elt Ideal) ℓ) (ρ : Dev nD → PrngReg) (c : Dev nD)

/-- The three argument arrays, at their literal types. -/
abbrev logits : S4096x32000.Idx → EReal := m ((c : Thread nD τ).loc main_arg0)
abbrev labels : S4096.Idx → BitVec 32 := m ((c : Thread nD τ).loc main_arg1)
abbrev weights : S32000.Idx → EReal := m ((c : Thread nD τ).loc main_arg2)

/-- The loss of every row, as the kernel's [4096, 1] output column. -/
def lossCol : S4096x1.Idx → EReal := fun i => loss (logits m c) (labels m c) (weights m c) (ix1 (i 0))

/-- A column read as a vector: entry `p` is the column's entry `(p, 0)`. -/
theorem vector_of_column_apply {α : Type} {n : ℕ} (x : (⟨2, ![n, 1]⟩ : Shape).Idx → α)
    (h : (⟨2, ![n, 1]⟩ : Shape).ShapeCasts ⟨1, ![n]⟩) (p : Fin n) :
    shapeCast ⟨1, ![n]⟩ x h (ix1 p) = x (ix2 p (0 : Fin 1)) :=
  shapeCast_apply x h _ _ (by
    rw [Shape.rowMajor_val_two, Shape.rowMajor_val_one]
    show p.val * 1 + 0 = p.val
    omega)

section Reals

variable (xr : Fin 4096 → Fin 32000 → ℝ) (wr : Fin 32000 → ℝ)
  (hX : ∀ p k, m ((c : Thread nD τ).loc main_arg0) (ix2 p k) = ((xr p k : ℝ) : EReal))
  (hW : ∀ k, m ((c : Thread nD τ).loc main_arg2) (ix1 k) = ((wr k : ℝ) : EReal))
  (hT : ∀ i, (m ((c : Thread nD τ).loc main_arg1) i).toNat < 32000)

include hX hW hT in
/-- The closing formula over the real views of a row is the specification's loss of that row. -/
theorem row_loss (p : Fin 4096) :
    -(weights m c (ix1 (classOf (labels m c (ix1 p)))))
        * ((Ideal.log (weights m c (ix1 (classOf (labels m c (ix1 p)))))
              + ((xN xr p.val (labelN m c p.val) : ℝ) : EReal))
            - Ideal.log ((∑ k ∈ Finset.range 32000, wN wr k * Real.exp (xN xr p.val k) : ℝ) : EReal))
      = lossCol m c (ix2 p (0 : Fin 1)) := by
  have hlab := hT (ix1 p)
  have hy : labelN m c p.val = (classOf (m ((c : Thread nD τ).loc main_arg1) (ix1 p))).val := by
    unfold labelN; rw [dif_pos p.isLt, classOf_val_of_lt hlab]
  have hxy : ((xN xr p.val (labelN m c p.val) : ℝ) : EReal)
      = logits m c (ix2 p (classOf (labels m c (ix1 p)))) := by
    show _ = m ((c : Thread nD τ).loc main_arg0) (ix2 p (classOf (m ((c : Thread nD τ).loc main_arg1) (ix1 p))))
    rw [hX, hy]; unfold xN; rw [dif_pos ⟨p.isLt, (classOf _).isLt⟩]
  have hsum : (∑ k ∈ Finset.range 32000, wN wr k * Real.exp (xN xr p.val k) : ℝ)
      = ∑ j : Fin 32000, wr j * Real.exp (xr p j) := by
    rw [← Fin.sum_univ_eq_sum_range (fun k => wN wr k * Real.exp (xN xr p.val k)) 32000]
    refine Finset.sum_congr rfl fun j _ => ?_
    unfold wN xN
    rw [dif_pos j.isLt, dif_pos ⟨p.isLt, j.isLt⟩]
  rw [hxy, hsum, ← partition_coe (logits m c) (weights m c) xr wr hX hW p]
  rfl

/-- Which block the output window writes at point `t`. -/
theorem out_index (t : Fin cfg0.N) : win0_4.index t (0 : Fin 2) = t.val / 10 ∧ win0_4.index t (1 : Fin 2) = 0 := by
  obtain ⟨-, -, -, -, -, -, -, -, h0, h1⟩ := idx_facts t
  exact ⟨h0, h1⟩

include hX hW hT in
/-- WHAT A FLUSHING POINT WRITES BACK is its block of the loss column. -/
theorem flushed_eq (t : Fin cfg0.N) (hf : (cfg0.win 4).flush t = true) :
    (dats m 0 c).flushed 4 t = ((cfg0.win 4).blk t).view.read (Elt Ideal) (lossCol m c) := by
  have h9 : t.val % 10 = 9 := (flush0_4 t).mp hf
  have h0 : ¬t.val % 10 = 0 := by omega
  have hN := lt80 t
  obtain ⟨i0, i1⟩ := out_index t
  show (cfg0.win 4).cut (grid0.coords t) ((dats m 0 c).after 4 t) = _
  rw [after0_4]
  funext j
  obtain ⟨r, u, rfl⟩ : ∃ (r : Fin 512) (u : Fin 1), j = ix2 r u := ⟨j 0, j 1, eq_ix2 j⟩
  obtain rfl : u = 0 := Subsingleton.elim _ _
  show (outsAt0 m c t.val t.isLt).1 (ix2 r 0) = lossCol m c (((cfg0.win 4).blk t).view.emb (ix2 r 0))
  have hemb : ((cfg0.win 4).blk t).view.emb (ix2 r (0 : Fin 1)) = ix2 (rowOf t r) (0 : Fin 1) := by
    funext a; apply Fin.ext
    match a with
    | ⟨0, _⟩ => show win0_4.index t (0 : Fin 2) * 512 + 1 * r.val = 512 * (t.val / 10) + r.val; rw [i0]; omega
    | ⟨1, _⟩ => show win0_4.index t (1 : Fin 2) * 1 + 1 * 0 = 0; rw [i1]
  rw [hemb]
  obtain ⟨-, -, -, e3⟩ := acc_last m c t h0 h9
  have hinv := inv m c xr wr hX hW hT t.val t.isLt r
  rw [show 3200 * (t.val % 10) + 3200 = 32000 from by omega] at hinv
  have hy : labelN m c (512 * (t.val / 10) + r.val) < 32000 := by
    unfold labelN; rw [dif_pos (by omega)]; exact hT _
  rw [e3, finish _ _ _ _ r _ _ _ hy hinv, labelWeight_entry m c t r hT]
  exact row_loss m c xr wr hX hW hT (rowOf t r)

/-- An index of the column is in point `t`'s block iff its row is in the tile's range. -/
theorem mem_blk (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v11).slice (win0_4.rect t)).set ↔ _
  rw [View.set_slice_whole, Rect.mem_set_unit]
  exact Iff.rfl

include hX hW hT in
/-- THE ARRAY after the region: the loss column (the eight tiles' last points cover it). -/
theorem final : (dats m 0 c).arrAt 4 cfg0.N = lossCol m c :=
  (dats m 0 c).arrAt_eq_of_cover 4 (lossCol m c) (flushed_eq m c xr wr hX hW hT) fun i => by
    have hi0 : (i 0).val < 4096 := (i 0).isLt
    have hi1 : (i 1).val < 1 := (i 1).isLt
    have hN : cfg0.N = 80 := N_0
    let t : Fin cfg0.N := ⟨10 * ((i 0).val / 512) + 9, by rw [hN]; omega⟩
    have ht : t.val = 10 * ((i 0).val / 512) + 9 := rfl
    obtain ⟨i0, i1⟩ := out_index t
    refine ⟨t, (flush0_4 t).mpr (by rw [ht]; omega), ?_⟩
    rw [mem_blk]
    intro a
    match a with
    | ⟨0, _⟩ => show win0_4.index t (0 : Fin 2) * 512 ≤ (i 0).val ∧ (i 0).val < win0_4.index t (0 : Fin 2) * 512 + 512; rw [i0, ht]; omega
    | ⟨1, _⟩ => show win0_4.index t (1 : Fin 2) * 1 ≤ (i 1).val ∧ (i 1).val < win0_4.index t (1 : Fin 2) * 1 + 1; rw [i1]; omega

end Reals

end BalancedSoftmax.Final

end
-- ==== Proof.KRun.lean ====
/-
  The kernel's run, read: for finite logits and weights and labels in `[0, 32000)`, every execution ends with the
  result array at the specification's loss and the three argument arrays unchanged.

  The region leaves the [4096, 1] loss column (`KFinal.lean`); the host's last line reshapes it to [4096], entry `p`
  being the column's entry `(p, 0)`.
-/
import proofs.«404558_j17944373362748_2_alg».proof.Proof.KFinal
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace BalancedSoftmax.Final

open Cert.KernelIdeal Cert.KernelIdeal.Gen BalancedSoftmax BalancedSoftmax.Inv

variable (m : (ℓ : Loc nD τ sig) → Buf (Elt Ideal) ℓ) (ρ : Dev nD → PrngReg) (c : Dev nD)

section Reals

variable (xr : Fin 4096 → Fin 32000 → ℝ) (wr : Fin 32000 → ℝ)
  (hX : ∀ p k, m ((c : Thread nD τ).loc main_arg0) (ix2 p k) = ((xr p k : ℝ) : EReal))
  (hW : ∀ k, m ((c : Thread nD τ).loc main_arg2) (ix1 k) = ((wr k : ℝ) : EReal))
  (hT : ∀ i, (m ((c : Thread nD τ).loc main_arg1) i).toNat < 32000)

include hX hW hT in
/-- The result buffer after the host's last line: the loss column read as a vector. -/
theorem tail_eq : (Pipeline.afterTail₀ cfgs (dats m) 0 (V0 m) [hostOps1] c main_v12 : S4096.Idx → EReal)
    = shapeCast S4096 (lossCol m c) shapeCasts_S4096x1_S4096 := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.tc.devRef main_v11)
      = lossCol m c :=
    (Pipeline.withArrays_arr spec0 launch0.win.arr_inj c _ _ 4).trans (final m c xr wr hX hW hT)
  rw [e]
  rfl

include hX hW hT in
/-- … which is the loss, row by row. -/
theorem result_eq : (Pipeline.afterTail₀ cfgs (dats m) 0 (V0 m) [hostOps1] c main_v12 : S4096.Idx → EReal)
    = loss (logits m c) (labels m c) (weights m c) := by
  rw [tail_eq m c xr wr hX hW hT]
  funext i
  obtain ⟨p, rfl⟩ : ∃ p : Fin 4096, i = ix1 p := ⟨i 0, eq_ix1 i⟩
  rw [vector_of_column_apply]
  rfl

end Reals

/-- THE RUN. -/
theorem run
    (hX : ∀ (c : Dev nD) i, ∃ r : ℝ, m ((c : Thread nD τ).loc main_arg0) i = (r : EReal))
    (hW : ∀ (c : Dev nD) k, ∃ r : ℝ, m ((c : Thread nD τ).loc main_arg2) k = (r : EReal))
    (hT : ∀ (c : Dev nD) i, (m ((c : Thread nD τ).loc main_arg1) i).toNat < 32000) :
    θ_run defs (onTc (τ := τ) (main (F := Ideal))) ⟨m, fun _ => 0, ρ⟩ (fun r => ∀ c : Dev nD,
      r.2.mem ((c.tc : Thread nD τ).loc main_v12) = loss (logits m c) (labels m c) (weights m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  choose xr hxr using hX c
  choose wr hwr using hW c
  refine ⟨?_, ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩
  exact ((h c).2 main_v12 (Pipeline.mem_restRefs_of main_v12 (by decide) (by decide))).trans
    (result_eq m c (fun p k => xr (ix2 p k)) (fun k => wr (ix1 k)) (fun p k => hxr _) (fun k => hwr _) (hT c))

end BalancedSoftmax.Final

end
-- ==== Proof.lean ====
/-
  The balanced-softmax loss kernel against its jnp reference, over the extended reals.

  For a row `i` with label `y`, logits `x i ·` and class weights `w`, both programs compute

      loss i = -(w y) · ( (log (w y) + x i y) - log (Σ_j w j · exp (x i j)) )

  with the logits shifted before exponentiating: the reference by the maximum `c` of the whole array (it subtracts `c`
  from the label's logit too), the kernel by a running per-row maximum `m_i` kept across ten chunks of 3200 classes
  (it adds `m_i` back outside the logarithm), its weighted sum rescaled by `exp (m_old − m_new)` at every chunk and
  the label's logit picked out by a one-hot mask in the one chunk that holds class `y`. For finite logits and
  weights every shift is a real number and cancels: `Σ_j w j · exp (x j − M) = exp (−M) · Σ_j w j · exp (x j)`, the two
  sums have one sign, so their logarithms (`⊥` at a non-positive sum) differ by exactly `M` or are both `⊥`. The weights'
  signs play no part; finiteness does (it is what makes the rescaling distribute over the sum).

  The labels: the kernel clips them into `[0, 31999]`, the reference wraps a negative one by 32000, so the two read
  different classes at a negative label. The statement therefore carries the labels' range, `0 ≤ label < 32000`, beside
  the finiteness of the two float inputs; under it both index the same class.

  The kernel's side reads the three carried accumulators point by point (an invariant over the 80 grid points), the
  reference's side its straight line; both are stated at one function, `BalancedSoftmax.loss`.
-/
import proofs.«404558_j17944373362748_2_alg».proof.Defs
import proofs.«404558_j17944373362748_2_alg».proof.Proof.Gen.Kernel.Frame
import proofs.«404558_j17944373362748_2_alg».proof.Proof.Gen.KernelIdeal.Frame
import proofs.«404558_j17944373362748_2_alg».proof.Proof.Gen.ReferenceIdeal.Run
import proofs.«404558_j17944373362748_2_alg».proof.Proof.Gen.ReferenceIdeal.Read
import proofs.«404558_j17944373362748_2_alg».proof.Proof.Gen.Pre_finite_inputs
import proofs.«404558_j17944373362748_2_alg».proof.Proof.PreRead
import proofs.«404558_j17944373362748_2_alg».proof.Proof.RefValue
import proofs.«404558_j17944373362748_2_alg».proof.Proof.KRun

noncomputable section

namespace Cert.Proof

open Idealize.ShloMosaic Idealize.SL.Sem

/-- The kernel as printed runs, and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition (finite logits and weights, labels in `[0, 32000)`) both programs end with the loss of
    every row: the kernel's run and the reference's run, from memories agreeing on the arguments. -/
theorem algebraic : Cert.algebraic_KernelIdeal_ReferenceIdeal := by
  intro m ρ m' ρ' hpre hagree
  have hdec := fun c => BalancedSoftmax.Pre.finite_and_in_range _ _ _ (hpre c)
  refine ⟨fun c => BalancedSoftmax.loss (BalancedSoftmax.Final.logits m c) (BalancedSoftmax.Final.labels m c) (BalancedSoftmax.Final.weights m c),
    BalancedSoftmax.Final.run m ρ (fun c => (hdec c).1) (fun c => (hdec c).2.1) (fun c => (hdec c).2.2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v35_eq, (hagree c).1, (hagree c).2.1, (hagree c).2.2]
  exact BalancedSoftmax.Ref.result_eq_loss _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
